-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32x4 : Shape := ⟨3, ![200000, 32, 4]⟩
abbrev S200000 : Shape := ⟨1, ![200000]⟩
abbrev S200000x4 : Shape := ⟨2, ![200000, 4]⟩
abbrev S5x16 : Shape := ⟨2, ![5, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S200000x32x4 : S_.BroadcastsInDim S200000x32x4 (![] : Fin 0 → Fin S200000x32x4.rank)
  reducesTo_S200000x32x4_S_d0_1_2 : S200000x32x4.ReducesTo [0, 1, 2] S_
  h_S_ : 0 < S_.numel
  bcast_S_S5x16 : S_.BroadcastsInDim S5x16 (![] : Fin 0 → Fin S5x16.rank)
  reducesTo_S5x16_S_d0_1 : S5x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x32x4 .f32) (main_arg1 : IVec S200000 32) (main_arg2 : IVec S200000x4 32) (main_arg3 : FVec F S5x16 .f32) (main_arg4 : FVec F S16 .f32) (main_arg5 : FVec F S16x1 .f32) (main_arg6 : FVec F S1 .f32) : IVec S_ 1 :=
  let main_v0 : FVec F S200000x32x4 .f32 := Host.absf main_arg0
  let main_cst : FVec F S_ .f32 := constant S_ .f32 0x7F800000#32
  let main_v1 : FVec F S200000x32x4 .f32 := broadcastInDim S200000x32x4 ![] bcast_S_S200000x32x4 main_cst
  let main_v2 : IVec S200000x32x4 1 := cmpf .olt main_v0 main_v1
  let main_c : IVec S_ 1 := constantI S_ 1 1#1
  let main_v3 : IVec S_ 1 := (fun x v => Host.reduce IntOp.andi x v reducesTo_S200000x32x4_S_d0_1_2 h_S_) main_v2 main_c
  let main_v4 : FVec F S5x16 .f32 := Host.absf main_arg3
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg5
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg6 main_v13 main_v16
-- ==== Kernel.lean ====
abbrev S200000x32x4 : Shape := ⟨3, ![200000, 32, 4]⟩
abbrev S200000 : Shape := ⟨1, ![200000]⟩
abbrev S200000x4 : Shape := ⟨2, ![200000, 4]⟩
abbrev S5x16 : Shape := ⟨2, ![5, 16]⟩
abbrev S16 : Shape := ⟨1, ![16]⟩
abbrev S16x1 : Shape := ⟨2, ![16, 1]⟩
abbrev S1 : Shape := ⟨1, ![1]⟩
abbrev S128x4 : Shape := ⟨2, ![128, 4]⟩
abbrev S4x128 : Shape := ⟨2, ![4, 128]⟩
abbrev S200000x128 : Shape := ⟨2, ![200000, 128]⟩
abbrev S200000x1 : Shape := ⟨2, ![200000, 1]⟩
abbrev S1x16 : Shape := ⟨2, ![1, 16]⟩
abbrev S1x1 : Shape := ⟨2, ![1, 1]⟩
abbrev S2000x128 : Shape := ⟨2, ![2000, 128]⟩
abbrev S2000x1 : Shape := ⟨2, ![2000, 1]⟩
abbrev S2000x4 : Shape := ⟨2, ![2000, 4]⟩
abbrev S2000x3 : Shape := ⟨2, ![2000, 3]⟩
abbrev S2000 : Shape := ⟨1, ![2000]⟩
abbrev S2000x5 : Shape := ⟨2, ![2000, 5]⟩
abbrev S2000x16 : Shape := ⟨2, ![2000, 16]⟩

abbrev nBuf : Space → Nat
  | .hbm => 15
  | .vmem => 12
  | .smem => 0
  | _ => 0

abbrev bufTy : (tb : Table) → Fin (tcTables nBuf tb) → BufTy
  | .hbm, ⟨0, _⟩ => ⟨S200000x32x4, .f32⟩
  | .hbm, ⟨1, _⟩ => ⟨S200000, .i32⟩
  | .hbm, ⟨2, _⟩ => ⟨S200000x4, .i32⟩
  | .hbm, ⟨3, _⟩ => ⟨S5x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S128x4, .f32⟩
  | .hbm, ⟨8, _⟩ => ⟨S4x128, .f32⟩
  | .hbm, ⟨9, _⟩ => ⟨S200000x128, .f32⟩
  | .hbm, ⟨10, _⟩ => ⟨S200000, .f32⟩
  | .hbm, ⟨11, _⟩ => ⟨S200000x1, .f32⟩
  | .hbm, ⟨12, _⟩ => ⟨S1x16, .f32⟩
  | .hbm, ⟨13, _⟩ => ⟨S1x1, .f32⟩
  | .hbm, ⟨14, _⟩ => ⟨S200000x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x4, .f32⟩
  | .local _ .vmem, ⟨5, _⟩ => ⟨S4x128, .f32⟩
  | .local _ .vmem, ⟨6, _⟩ => ⟨S5x16, .f32⟩
  | .local _ .vmem, ⟨7, _⟩ => ⟨S1x16, .f32⟩
  | .local _ .vmem, ⟨8, _⟩ => ⟨S16x1, .f32⟩
  | .local _ .vmem, ⟨9, _⟩ => ⟨S1x1, .f32⟩
  | .local _ .vmem, ⟨10, _⟩ => ⟨S2000x1, .f32⟩
  | .local _ .vmem, ⟨11, _⟩ => ⟨S2000x1, .f32⟩
  | _, _ => ⟨S200000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S200000x32x4_S200000x128 : S200000x32x4.ShapeCasts S200000x128
  shapeCasts_S200000_S200000x1 : S200000.ShapeCasts S200000x1
  shapeCasts_S16_S1x16 : S16.ShapeCasts S1x16
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S128x4_S128x4_0_0 : ∀ a, (![0, 0] : Fin 2 → Nat) a + S128x4.size a ≤ S128x4.size a
  h_S128x4 : 0 < S128x4.numel
  inb_S4x128_S4x128_0_0 : ∀ a, (![0, 0] : Fin 2 → Nat) a + S4x128.size a ≤ S4x128.size a
  h_S4x128 : 0 < S4x128.numel
  iota_S2000x128_d1_w32 : S2000x128.Iotas .tc 32 [1]
  natLt_1_32 : 1 < 32
  broadcasts_S2000x1_S2000x128 : S2000x1.Broadcasts S2000x128
  broadcasts_S2000x1_S2000x4 : S2000x1.Broadcasts S2000x4
  slices_S2000x4_o0_0_S2000x3 : S2000x4.Slices ![0, 0] S2000x3
  reduces_S2000x3_S2000 : S2000x3.Reduces [1] S2000
  shapeCasts_S2000_S2000x1 : S2000.ShapeCasts S2000x1
  concatenates_S2000x1_S2000x1_S2000x3_S2000x5_d1 : Shape.Concatenates [S2000x1, S2000x1, S2000x3] S2000x5 1
  inb_S5x16_S5x16_0_0 : ∀ a, (![0, 0] : Fin 2 → Nat) a + S5x16.size a ≤ S5x16.size a
  h_S5x16 : 0 < S5x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  dot_S2000x128_S128x4_S2000x4_1_0_0_1_n_n_wf : DotDims.WF S2000x128 S128x4 S2000x4 [1] [0] [0] [1] [] []
  dot_S2000x4_S4x128_S2000x128_1_0_0_1_n_n_wf : DotDims.WF S2000x4 S4x128 S2000x128 [1] [0] [0] [1] [] []
  dot_S2000x5_S5x16_S2000x16_1_0_0_1_n_n_wf : DotDims.WF S2000x5 S5x16 S2000x16 [1] [0] [0] [1] [] []
  dot_S2000x16_S16x1_S2000x1_1_0_0_1_n_n_wf : DotDims.WF S2000x16 S16x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S200000x1.size a
  hwx0_1 : ∀ i : grid0.Coords, EltTy.bits .f32 = 32 ∨ (Rect.block (s := S200000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x16.size a ≤ S5x16.size a
  hwx0_4 : ∀ i : grid0.Coords, EltTy.bits .f32 = 32 ∨ (Rect.block (s := S5x16) S5x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S200000x1.size a
  hwx0_8 : ∀ i : grid0.Coords, EltTy.bits .f32 = 32 ∨ (Rect.block (s := S200000x1) S2000x1.size (cc0_transform_8 i) (hinb0_8 i)).WholeWords (EltTy.packing .f32)

variable [Facts₀]

def dot_S2000x128_S128x4_S2000x4_1_0_0_1_n_n : DotDims S2000x128 S128x4 S2000x4 where
  lhsContracting := [1]
  rhsContracting := [0]
  lhsNonContracting := [0]
  rhsNonContracting := [1]
  lhsBatch := []
  rhsBatch := []
  wf := dot_S2000x128_S128x4_S2000x4_1_0_0_1_n_n_wf
def dot_S2000x4_S4x128_S2000x128_1_0_0_1_n_n : DotDims S2000x4 S4x128 S2000x128 where
  lhsContracting := [1]
  rhsContracting := [0]
  lhsNonContracting := [0]
  rhsNonContracting := [1]
  lhsBatch := []
  rhsBatch := []
  wf := dot_S2000x4_S4x128_S2000x128_1_0_0_1_n_n_wf
def dot_S2000x5_S5x16_S2000x16_1_0_0_1_n_n : DotDims S2000x5 S5x16 S2000x16 where
  lhsContracting := [1]
  rhsContracting := [0]
  lhsNonContracting := [0]
  rhsNonContracting := [1]
  lhsBatch := []
  rhsBatch := []
  wf := dot_S2000x5_S5x16_S2000x16_1_0_0_1_n_n_wf
def dot_S2000x16_S16x1_S2000x1_1_0_0_1_n_n : DotDims S2000x16 S16x1 S2000x1 where
  lhsContracting := [1]
  rhsContracting := [0]
  lhsNonContracting := [0]
  rhsNonContracting := [1]
  lhsBatch := []
  rhsBatch := []
  wf := dot_S2000x16_S16x1_S2000x1_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst_0) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S5x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x32x4 : Shape := ⟨3, ![200000, 32, 4]⟩
abbrev S200000 : Shape := ⟨1, ![200000]⟩
abbrev S200000x4 : Shape := ⟨2, ![200000, 4]⟩
abbrev S5x16 : Shape := ⟨2, ![5, 16]⟩
abbrev S16 : Shape := ⟨1, ![16]⟩
abbrev S16x1 : Shape := ⟨2, ![16, 1]⟩
abbrev S1 : Shape := ⟨1, ![1]⟩
abbrev S_ : Shape := ⟨0, ![]⟩
abbrev S200000x1 : Shape := ⟨2, ![200000, 1]⟩
abbrev S200000x32x3 : Shape := ⟨3, ![200000, 32, 3]⟩
abbrev S32 : Shape := ⟨1, ![32]⟩
abbrev S1x32 : Shape := ⟨2, ![1, 32]⟩
abbrev S200000x32 : Shape := ⟨2, ![200000, 32]⟩
abbrev S200000x32x1 : Shape := ⟨3, ![200000, 32, 1]⟩
abbrev S200000x3 : Shape := ⟨2, ![200000, 3]⟩
abbrev S200000x1x3 : Shape := ⟨3, ![200000, 1, 3]⟩
abbrev S200000x5 : Shape := ⟨2, ![200000, 5]⟩
abbrev S200000x16 : Shape := ⟨2, ![200000, 16]⟩
abbrev S1x16 : Shape := ⟨2, ![1, 16]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S200000x32x4, .f32⟩
  | .hbm, ⟨1, _⟩ => ⟨S200000, .i32⟩
  | .hbm, ⟨2, _⟩ => ⟨S200000x4, .i32⟩
  | .hbm, ⟨3, _⟩ => ⟨S5x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S200000, .f32⟩
  | .hbm, ⟨8, _⟩ => ⟨S_, .f32⟩
  | .hbm, ⟨9, _⟩ => ⟨S_, .f32⟩
  | .hbm, ⟨10, _⟩ => ⟨S200000, .f32⟩
  | .hbm, ⟨11, _⟩ => ⟨S200000, .f32⟩
  | .hbm, ⟨12, _⟩ => ⟨S_, .f32⟩
  | .hbm, ⟨13, _⟩ => ⟨S200000, .f32⟩
  | .hbm, ⟨14, _⟩ => ⟨S200000, .f32⟩
  | .hbm, ⟨15, _⟩ => ⟨S200000x1, .f32⟩
  | .hbm, ⟨16, _⟩ => ⟨S200000x32x3, .f32⟩
  | .hbm, ⟨17, _⟩ => ⟨S32, .i32⟩
  | .hbm, ⟨18, _⟩ => ⟨S1x32, .i32⟩
  | .hbm, ⟨19, _⟩ => ⟨S200000x1, .i32⟩
  | .hbm, ⟨20, _⟩ => ⟨S200000x32, .i32⟩
  | .hbm, ⟨21, _⟩ => ⟨S200000x32, .i32⟩
  | .hbm, ⟨22, _⟩ => ⟨S200000x32, .i1⟩
  | .hbm, ⟨23, _⟩ => ⟨S200000x32, .f32⟩
  | .hbm, ⟨24, _⟩ => ⟨S200000x32x1, .f32⟩
  | .hbm, ⟨25, _⟩ => ⟨S_, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S200000x1, .f32⟩
  | .hbm, ⟨30, _⟩ => ⟨S200000x32x3, .f32⟩
  | .hbm, ⟨31, _⟩ => ⟨S200000x32x3, .f32⟩
  | .hbm, ⟨32, _⟩ => ⟨S_, .f32⟩
  | .hbm, ⟨33, _⟩ => ⟨S200000x3, .f32⟩
  | .hbm, ⟨34, _⟩ => ⟨S200000x3, .f32⟩
  | .hbm, ⟨35, _⟩ => ⟨S200000x3, .f32⟩
  | .hbm, ⟨36, _⟩ => ⟨S200000x1x3, .f32⟩
  | .hbm, ⟨37, _⟩ => ⟨S200000x32x3, .f32⟩
  | .hbm, ⟨38, _⟩ => ⟨S200000x32x3, .f32⟩
  | .hbm, ⟨39, _⟩ => ⟨S200000x32x3, .f32⟩
  | .hbm, ⟨40, _⟩ => ⟨S200000x32x3, .f32⟩
  | .hbm, ⟨41, _⟩ => ⟨S200000x32x3, .f32⟩
  | .hbm, ⟨42, _⟩ => ⟨S_, .f32⟩
  | .hbm, ⟨43, _⟩ => ⟨S200000x3, .f32⟩
  | .hbm, ⟨44, _⟩ => ⟨S200000x3, .f32⟩
  | .hbm, ⟨45, _⟩ => ⟨S200000x3, .f32⟩
  | .hbm, ⟨46, _⟩ => ⟨S_, .f32⟩
  | .hbm, ⟨47, _⟩ => ⟨S200000, .f32⟩
  | .hbm, ⟨48, _⟩ => ⟨S200000x1, .f32⟩
  | .hbm, ⟨49, _⟩ => ⟨S_, .f32⟩
  | .hbm, ⟨50, _⟩ => ⟨S200000x1, .f32⟩
  | .hbm, ⟨51, _⟩ => ⟨S200000x1, .f32⟩
  | .hbm, ⟨52, _⟩ => ⟨S_, .f32⟩
  | .hbm, ⟨53, _⟩ => ⟨S200000x1, .f32⟩
  | .hbm, ⟨54, _⟩ => ⟨S200000x1, .f32⟩
  | .hbm, ⟨55, _⟩ => ⟨S200000x1, .f32⟩
  | .hbm, ⟨56, _⟩ => ⟨S200000x5, .f32⟩
  | .hbm, ⟨57, _⟩ => ⟨S200000x16, .f32⟩
  | .hbm, ⟨58, _⟩ => ⟨S1x16, .f32⟩
  | .hbm, ⟨59, _⟩ => ⟨S200000x16, .f32⟩
  | .hbm, ⟨60, _⟩ => ⟨S200000x16, .f32⟩
  | .hbm, ⟨61, _⟩ => ⟨S_, .f32⟩
  | .hbm, ⟨62, _⟩ => ⟨S200000x16, .f32⟩
  | .hbm, ⟨63, _⟩ => ⟨S200000x16, .f32⟩
  | .hbm, ⟨64, _⟩ => ⟨S200000x1, .f32⟩
  | .hbm, ⟨65, _⟩ => ⟨S1x1, .f32⟩
  | .hbm, ⟨66, _⟩ => ⟨S200000x1, .f32⟩
  | .hbm, ⟨67, _⟩ => ⟨S200000x1, .f32⟩
  | .hbm, ⟨68, _⟩ => ⟨S200000x1, .f32⟩
  | .hbm, ⟨69, _⟩ => ⟨S200000x1, .f32⟩
  | .hbm, ⟨70, _⟩ => ⟨S_, .f32⟩
  | .hbm, ⟨71, _⟩ => ⟨S200000x1, .f32⟩
  | .hbm, ⟨72, _⟩ => ⟨S200000x1, .f32⟩
  | .hbm, ⟨73, _⟩ => ⟨S_, .f32⟩
  | .hbm, ⟨74, _⟩ => ⟨S200000x1, .f32⟩
  | .hbm, ⟨75, _⟩ => ⟨S200000x1, .f32⟩
  | _, _ => ⟨S200000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  slices_S200000x32x4_S200000x32x3_0_0_0 : S200000x32x4.Slices ![0, 0, 0] S200000x32x3
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S200000x1_S200000x32_0_1 : S200000x1.BroadcastsInDim S200000x32 (![0, 1] : Fin 2 → Fin S200000x32.rank)
  bcast_S200000x32_S200000x32x1_0_1 : S200000x32.BroadcastsInDim S200000x32x1 (![0, 1] : Fin 2 → Fin S200000x32x1.rank)
  bcast_S200000x32x1_S200000x32x3_0_1_2 : S200000x32x1.BroadcastsInDim S200000x32x3 (![0, 1, 2] : Fin 3 → Fin S200000x32x3.rank)
  reducesTo_S200000x32x3_S200000x3_d1 : S200000x32x3.ReducesTo [1] S200000x3
  h_S_ : 0 < S_.numel
  bcast_S200000x1_S200000x3_0_1 : S200000x1.BroadcastsInDim S200000x3 (![0, 1] : Fin 2 → Fin S200000x3.rank)
  bcast_S200000x3_S200000x1x3_0_2 : S200000x3.BroadcastsInDim S200000x1x3 (![0, 2] : Fin 2 → Fin S200000x1x3.rank)
  bcast_S200000x1x3_S200000x32x3_0_1_2 : S200000x1x3.BroadcastsInDim S200000x32x3 (![0, 1, 2] : Fin 3 → Fin S200000x32x3.rank)
  reducesTo_S200000x3_S200000_d1 : S200000x3.ReducesTo [1] S200000
  bcast_S_S200000x1 : S_.BroadcastsInDim S200000x1 (![] : Fin 0 → Fin S200000x1.rank)
  concatenates_S200000x1_S200000x1_S200000x3_S200000x5_d1 : Shape.Concatenates [S200000x1, S200000x1, S200000x3] S200000x5 1
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S_S200000x16 : S_.BroadcastsInDim S200000x16 (![] : Fin 0 → Fin S200000x16.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x5_S5x16_S200000x16_1_0_0_1_n_n_wf : DotDims.WF S200000x5 S5x16 S200000x16 [1] [0] [0] [1] [] []
  dot_S200000x16_S16x1_S200000x1_1_0_0_1_n_n_wf : DotDims.WF S200000x16 S16x1 S200000x1 [1] [0] [0] [1] [] []

variable [Facts₀]

def dot_S200000x5_S5x16_S200000x16_1_0_0_1_n_n : DotDims S200000x5 S5x16 S200000x16 where
  lhsContracting := [1]
  rhsContracting := [0]
  lhsNonContracting := [0]
  rhsNonContracting := [1]
  lhsBatch := []
  rhsBatch := []
  wf := dot_S200000x5_S5x16_S200000x16_1_0_0_1_n_n_wf
def dot_S200000x16_S16x1_S200000x1_1_0_0_1_n_n : DotDims S200000x16 S16x1 S200000x1 where
  lhsContracting := [1]
  rhsContracting := [0]
  lhsNonContracting := [0]
  rhsNonContracting := [1]
  lhsBatch := []
  rhsBatch := []
  wf := dot_S200000x16_S16x1_S200000x1_1_0_0_1_n_n_wf

class Facts : Prop extends Facts₀ where

variable [Facts]
-- ==== Proof.VoxelSpec.lean ====
/-
  One voxel of the soft-occupancy feature encoder, as a function on the extended reals.

  A voxel holds 32 points of 4 channels, `X p c`, and a count `ν` of how many of its points are live
  (point `p` is live when `p < ν`).  The encoder takes, per channel `c < 3`, the mean of the live points and
  the mean squared deviation of the live points from that mean (both divided by `max 1 ν`), the average of
  the three spreads, `exp (-(1/2) · average)`, the clipped density `min 10 ν / 10`, and feeds the five
  numbers (density, exp-term, three means) through a 5 → 16 → 1 perceptron with a ReLU between and a
  logistic at the end.

  Also here: the two regrouping facts about a sum over the 128 lanes `j = 4 p + c` of a row against a
  0/1 selector of the lanes of channel `c`, and about a sum over the 4 channels against a 0/1 selector of one.
  They use only that `x · 0 = 0`, `x · 1 = x` and `0 + x = x` on the extended reals, so no finiteness.
-/
import Mathlib.Algebra.BigOperators.Fin
import Mathlib.Algebra.BigOperators.Group.Finset.Basic
import Mathlib.Data.Fintype.BigOperators
import Mathlib.Logic.Equiv.Fin.Basic
import Idealize.ShloMosaic.PureOps.Ideal
import Idealize.ShloMosaic.PureOps.Ideal.Laws
import Idealize.ShloMosaic.Lib.ValueIdx

noncomputable section

open scoped BigOperators

namespace Cert.Voxel

open Idealize.ShloMosaic

/-- The f32 words the two programs share: 1, 0, 3, -1/2, 10. -/
abbrev wOne : EReal := Ideal.ofBits .f32 0x3F800000#32
abbrev wZero : EReal := Ideal.ofBits .f32 0x00000000#32
abbrev wThree : EReal := Ideal.ofBits .f32 0x40400000#32
abbrev wNegHalf : EReal := Ideal.ofBits .f32 0xBF000000#32
abbrev wTen : EReal := Ideal.ofBits .f32 0x41200000#32

/-- The word of 1.0 denotes one. -/
theorem wOne_eq : Ideal.ofBits .f32 0x3F800000#32 = (1 : EReal) := by
  simp [Ideal.ofBits, Ideal.ieee]
  have h : (8388608 : ℝ) * ((2 : ℝ) ^ 23)⁻¹ = 1 := by norm_num
  exact_mod_cast h

/-- Point `p` of a voxel with `ν` live points counts (1) or not (0). -/
def live (ν : EReal) (p : Fin 32) : EReal := if (((p.val : ℤ) : ℝ) : EReal) < ν then 1 else 0

/-- The divisor of the means: at least one. -/
def den (ν : EReal) : EReal := max wOne ν

/-- The sum of a channel over the live points. -/
def msum (x : Fin 32 → EReal) (ν : EReal) : EReal := ∑ p : Fin 32, x p * live ν p

/-- The mean of a channel over the live points. -/
def mean (x : Fin 32 → EReal) (ν : EReal) : EReal := Ideal.div (msum x ν) (den ν)

/-- A live point's deviation from the mean (zero for the others). -/
def dev (x : Fin 32 → EReal) (ν : EReal) (p : Fin 32) : EReal := (x p - mean x ν) * live ν p

/-- The mean squared deviation of a channel. -/
def spread (x : Fin 32 → EReal) (ν : EReal) : EReal := Ideal.div (∑ p : Fin 32, dev x ν p * dev x ν p) (den ν)

/-- `exp (-(1/2) · the average of the three spreads)`. -/
def pvar (X : Fin 32 → Fin 4 → EReal) (ν : EReal) : EReal :=
  Ideal.exp (wNegHalf * Ideal.div (∑ c : Fin 3, spread (fun p => X p c.castSucc) ν) wThree)

/-- The clipped density. -/
def pden (ν : EReal) : EReal := Ideal.div (min wTen ν) wTen

/-- The hidden layer's unit `o`. -/
def hid (X : Fin 32 → Fin 4 → EReal) (ν : EReal) (W1 : Fin 5 → Fin 16 → EReal) (b1 : Fin 16 → EReal) (o : Fin 16) : EReal :=
  max ((pden ν * W1 0 o + pvar X ν * W1 1 o + mean (fun p => X p 0) ν * W1 2 o + mean (fun p => X p 1) ν * W1 3 o
        + mean (fun p => X p 2) ν * W1 4 o) + b1 o) wZero

/-- The voxel's occupancy. -/
def occ (X : Fin 32 → Fin 4 → EReal) (ν : EReal) (W1 : Fin 5 → Fin 16 → EReal) (b1 : Fin 16 → EReal)
    (W2 : Fin 16 → EReal) (b2 : EReal) : EReal :=
  Ideal.logistic ((∑ o : Fin 16, hid X ν W1 b1 o * W2 o) + b2)

/-! ## Regrouping sums against 0/1 selectors -/

/-- The lane `4 p + c` of a row of 128. -/
def lane (p : Fin 32) (c : Fin 4) : Fin 128 := ⟨4 * p.val + c.val, by have := p.isLt; have := c.isLt; omega⟩

/-- A sum over the 128 lanes against the selector of channel `c`'s lanes is the sum over the 32 points of lane `4 p + c`. -/
theorem sum_sel (g s : Fin 128 → EReal) (c : Fin 4) (hs : ∀ j : Fin 128, s j = if j.val % 4 = c.val then 1 else 0) :
    ∑ j : Fin 128, g j * s j = ∑ p : Fin 32, g (lane p c) := by
  have e : ∑ j : Fin 128, g j * s j = ∑ j : Fin (32 * 4), g ⟨j.val, j.isLt⟩ * s ⟨j.val, j.isLt⟩ := rfl
  rw [e, ← Equiv.sum_comp finProdFinEquiv, Fintype.sum_prod_type]
  refine Finset.sum_congr rfl fun p _ => ?_
  have hterm : ∀ b : Fin 4, g ⟨(finProdFinEquiv (p, b)).val, (finProdFinEquiv (p, b)).isLt⟩ * s ⟨(finProdFinEquiv (p, b)).val, (finProdFinEquiv (p, b)).isLt⟩
      = if b = c then g (lane p c) else 0 := by
    intro b
    have hv : (finProdFinEquiv (p, b)).val = b.val + 4 * p.val := rfl
    rw [hs]
    have hm : (b.val + 4 * p.val) % 4 = b.val := by have := b.isLt; omega
    by_cases hbc : b = c
    · subst hbc
      rw [if_pos rfl, if_pos (by show (finProdFinEquiv (p, b)).val % 4 = b.val; rw [hv, hm]), mul_one]
      congr 1
      apply Fin.ext
      show (finProdFinEquiv (p, b)).val = 4 * p.val + b.val
      rw [hv, Nat.add_comm]
    · have hne : ¬ (b.val + 4 * p.val) % 4 = c.val := by rw [hm]; exact fun h => hbc (Fin.ext h)
      rw [if_neg hbc, if_neg (by show ¬ (finProdFinEquiv (p, b)).val % 4 = c.val; rw [hv]; exact hne), mul_zero]
  rw [Finset.sum_congr rfl fun b _ => hterm b, Finset.sum_ite_eq' Finset.univ c, if_pos (Finset.mem_univ _)]

/-- A sum over the 4 channels against the selector of channel `q` is the entry of channel `q`. -/
theorem sum_selt (a s : Fin 4 → EReal) (q : Fin 4) (hs : ∀ c : Fin 4, s c = if c = q then 1 else 0) :
    ∑ c : Fin 4, a c * s c = a q := by
  have hterm : ∀ c : Fin 4, a c * s c = if c = q then a c else 0 := by
    intro c
    rw [hs]
    by_cases h : c = q
    · rw [if_pos h, if_pos h, mul_one]
    · rw [if_neg h, if_neg h, mul_zero]
  rw [Finset.sum_congr rfl fun c _ => hterm c, Finset.sum_ite_eq' Finset.univ q, if_pos (Finset.mem_univ _)]

/-! ## The whole result array -/

/-- A 32-bit count read as a signed integer, as an extended real. -/
def cnt (n : BitVec 32) : EReal := ((n.toInt : ℝ) : EReal)

/-- Row `r` of the result: the occupancy of voxel `r`, a function of the voxel's 32 × 4 features, its point count and
    the perceptron's weights. -/
def row (x0 : (⟨3, ![200000, 32, 4]⟩ : Shape).Idx → EReal) (x1 : (⟨1, ![200000]⟩ : Shape).Idx → BitVec 32)
    (x3 : (⟨2, ![5, 16]⟩ : Shape).Idx → EReal) (x4 : (⟨1, ![16]⟩ : Shape).Idx → EReal)
    (x5 : (⟨2, ![16, 1]⟩ : Shape).Idx → EReal) (x6 : (⟨1, ![1]⟩ : Shape).Idx → EReal) (r : Fin 200000) : EReal :=
  occ (fun p c => x0 (ValueIdx.ix3 r p c)) (cnt (x1 (ValueIdx.ix1 r))) (fun k o => x3 (ValueIdx.ix2 k o))
    (fun o => x4 (ValueIdx.ix1 o)) (fun o => x5 (ValueIdx.ix2 o (0 : Fin 1))) (x6 (ValueIdx.ix1 (0 : Fin 1)))

/-- The result array `[200000, 1]`: entry `(r, 0)` is voxel `r`'s occupancy. -/
def G (x0 : (⟨3, ![200000, 32, 4]⟩ : Shape).Idx → EReal) (x1 : (⟨1, ![200000]⟩ : Shape).Idx → BitVec 32)
    (x3 : (⟨2, ![5, 16]⟩ : Shape).Idx → EReal) (x4 : (⟨1, ![16]⟩ : Shape).Idx → EReal)
    (x5 : (⟨2, ![16, 1]⟩ : Shape).Idx → EReal) (x6 : (⟨1, ![1]⟩ : Shape).Idx → EReal) :
    (⟨2, ![200000, 1]⟩ : Shape).Idx → EReal :=
  fun i => row x0 x1 x3 x4 x5 x6 ⟨(i 0).val, ValueIdx.idx2_lt0 i⟩

theorem G_apply (x0 : (⟨3, ![200000, 32, 4]⟩ : Shape).Idx → EReal) (x1 : (⟨1, ![200000]⟩ : Shape).Idx → BitVec 32)
    (x3 : (⟨2, ![5, 16]⟩ : Shape).Idx → EReal) (x4 : (⟨1, ![16]⟩ : Shape).Idx → EReal)
    (x5 : (⟨2, ![16, 1]⟩ : Shape).Idx → EReal) (x6 : (⟨1, ![1]⟩ : Shape).Idx → EReal) (r : Fin 200000) (u : Fin 1) :
    G x0 x1 x3 x4 x5 x6 (ValueIdx.ix2 r u) = row x0 x1 x3 x4 x5 x6 r := rfl

end Cert.Voxel

end
-- ==== Proof.RefValue.lean ====
/-
  The reference's result, read one operation at a time, is the voxel encoder's array `Cert.Voxel.G`.

  Bottom-up: the count as an extended real, the live mask (a signed compare of the point's index with the count),
  the divisor `max 1 ν`, the masked channel sums and means, the deviations and spreads, the exponential term and
  the clipped density; then the five features side by side, the two layers of the perceptron and the logistic.
-/
import proofs.«136101_j55808805044588_1_alg».proof.Proof.Gen.ReferenceIdeal.Read
import proofs.«136101_j55808805044588_1_alg».proof.Proof.VoxelSpec
import Idealize.ShloMosaic.Lib.StableHlo.Predicate
import Mathlib.Data.EReal.Basic

noncomputable section

open scoped BigOperators

namespace Cert.ReferenceIdeal.RefValue

open Cert.ReferenceIdeal Cert.ReferenceIdeal.Read Idealize.ShloMosaic Idealize.ShloMosaic.ValueIdx

/-! ## The count, the live mask and the divisor -/

/-- A point's index as a 32-bit word compares (signed) below the count exactly when the point is live. -/
theorem mask_word (p : Fin 32) (n : BitVec 32) :
    (((IntOp.cmpi .slt (BitVec.ofNat 32 p.val) n).toNat : ℝ) : EReal) = Cert.Voxel.live (Cert.Voxel.cnt n) p := by
  have hp : (BitVec.ofNat 32 p.val).toInt = (p.val : ℤ) :=
    StableHlo.Predicate.toInt_ofNat_small p.val (by have := p.isLt; omega)
  have hiff : ((((p.val : ℤ) : ℝ) : EReal) < ((n.toInt : ℝ) : EReal)) ↔ (p.val : ℤ) < n.toInt := by
    rw [EReal.coe_lt_coe_iff, Int.cast_lt]
  unfold Cert.Voxel.live Cert.Voxel.cnt IntOp.cmpi
  by_cases h : (p.val : ℤ) < n.toInt
  · have hb : (BitVec.ofNat 32 p.val).slt n = true := by
      simp only [BitVec.slt, hp, decide_eq_true_eq]; exact h
    rw [if_pos (hiff.mpr h)]
    simp only [hb]
    simp
  · have hb : (BitVec.ofNat 32 p.val).slt n = false := by
      simp only [BitVec.slt, hp, decide_eq_false_iff_not]; exact h
    rw [if_neg (fun h' => h (hiff.mp h'))]
    simp only [hb]
    simp

/-- The count converted to a float is the count read signed. -/
theorem v0_at (x1 : (⟨S200000, .i32⟩ : BufTy).Contents (Elt Ideal)) (r : Fin 200000) :
    val_main_v0 (F := Ideal) x1 (ix1 r) = Cert.Voxel.cnt (x1 (ix1 r)) := rfl

/-- The mask at voxel `r`, point `p`. -/
theorem v12_at (x1 : (⟨S200000, .i32⟩ : BufTy).Contents (Elt Ideal)) (r : Fin 200000) (p : Fin 32) :
    val_main_v12 (F := Ideal) x1 (ix2 r p) = Cert.Voxel.live (Cert.Voxel.cnt (x1 (ix1 r))) p := by
  rw [val_main_v12_apply, val_main_v11_apply, val_main_v9_apply, val_main_v7_apply, val_main_v6_apply,
    val_main_v10_apply, val_main_v8_apply]
  have e : idx_main_v8 (idx_main_v10 (ix2 r p)) = ix1 r :=
    funext fun a => Fin.ext (by match a with | ⟨0, _⟩ => rfl)
  rw [e]
  exact mask_word p (x1 (ix1 r))

/-- The divisor `max 1 ν` at voxel `r`. -/
theorem v14_at (x1 : (⟨S200000, .i32⟩ : BufTy).Contents (Elt Ideal)) (r : Fin 200000) :
    val_main_v14 (F := Ideal) x1 (ix1 r) = Cert.Voxel.den (Cert.Voxel.cnt (x1 (ix1 r))) := rfl

theorem v15_at (x1 : (⟨S200000, .i32⟩ : BufTy).Contents (Elt Ideal)) (r : Fin 200000) (u : Fin 1) :
    val_main_v15 (F := Ideal) x1 (ix2 r u) = Cert.Voxel.den (Cert.Voxel.cnt (x1 (ix1 r))) := by
  rw [val_main_v15_apply]
  have e : idx_main_v15 (ix2 r u) = ix1 r := funext fun a => Fin.ext (by match a with | ⟨0, _⟩ => rfl)
  rw [e]
  exact v14_at x1 r

/-! ## The channel means -/

/-- A masked feature: the feature times the live bit. -/
theorem v17_at (x0 : (⟨S200000x32x4, .f32⟩ : BufTy).Contents (Elt Ideal)) (x1 : (⟨S200000, .i32⟩ : BufTy).Contents (Elt Ideal))
    (r : Fin 200000) (p : Fin 32) (c : Fin 3) :
    val_main_v17 (F := Ideal) x0 x1 (ix3 r p c)
      = x0 (ix3 r p c.castSucc) * Cert.Voxel.live (Cert.Voxel.cnt (x1 (ix1 r))) p := by
  rw [val_main_v17_apply, val_main_v5_apply, val_main_v16_apply, val_main_v13_apply]
  have e5 : idx_main_v5 (ix3 r p c) = ix3 r p c.castSucc :=
    funext fun a => Fin.ext (by match a with | ⟨0, _⟩ => rfl | ⟨1, _⟩ => rfl | ⟨2, _⟩ => rfl)
  have e13 : idx_main_v13 (idx_main_v16 (ix3 r p c)) = ix2 r p :=
    funext fun a => Fin.ext (by match a with | ⟨0, _⟩ => rfl | ⟨1, _⟩ => rfl)
  rw [e5, e13, v12_at]
  rfl

/-- The masked sum of channel `c`. -/
theorem v18_at (x0 : (⟨S200000x32x4, .f32⟩ : BufTy).Contents (Elt Ideal)) (x1 : (⟨S200000, .i32⟩ : BufTy).Contents (Elt Ideal))
    (r : Fin 200000) (c : Fin 3) :
    val_main_v18 (F := Ideal) x0 x1 (ix2 r c)
      = Cert.Voxel.msum (fun p => x0 (ix3 r p c.castSucc)) (Cert.Voxel.cnt (x1 (ix1 r))) := by
  rw [val_main_v18_apply, val_main_cst_2_apply]
  unfold Cert.Voxel.msum
  rw [Ideal.ofBits_def, Ideal.ofBits_zero_f32, zero_add]
  refine Finset.sum_congr rfl fun k _ => ?_
  have e : idx_main_v18 (ix2 r c) k = ix3 r k c :=
    funext fun a => Fin.ext (by match a with | ⟨0, _⟩ => rfl | ⟨1, _⟩ => rfl | ⟨2, _⟩ => rfl)
  rw [e, v17_at]

theorem v19_at (x1 : (⟨S200000, .i32⟩ : BufTy).Contents (Elt Ideal)) (r : Fin 200000) (c : Fin 3) :
    val_main_v19 (F := Ideal) x1 (ix2 r c) = Cert.Voxel.den (Cert.Voxel.cnt (x1 (ix1 r))) := by
  rw [val_main_v19_apply]
  have e : idx_main_v19 (ix2 r c) = ix2 r (0 : Fin 1) :=
    funext fun a => Fin.ext (by match a with | ⟨0, _⟩ => rfl | ⟨1, _⟩ => rfl)
  rw [e, v15_at]

/-- The mean of channel `c` over the live points. -/
theorem v20_at (x0 : (⟨S200000x32x4, .f32⟩ : BufTy).Contents (Elt Ideal)) (x1 : (⟨S200000, .i32⟩ : BufTy).Contents (Elt Ideal))
    (r : Fin 200000) (c : Fin 3) :
    val_main_v20 (F := Ideal) x0 x1 (ix2 r c)
      = Cert.Voxel.mean (fun p => x0 (ix3 r p c.castSucc)) (Cert.Voxel.cnt (x1 (ix1 r))) := by
  rw [val_main_v20_apply, v18_at, v19_at]
  rfl

/-! ## The spreads and the exponential term -/

/-- A live point's deviation from its channel's mean. -/
theorem v25_at (x0 : (⟨S200000x32x4, .f32⟩ : BufTy).Contents (Elt Ideal)) (x1 : (⟨S200000, .i32⟩ : BufTy).Contents (Elt Ideal))
    (r : Fin 200000) (p : Fin 32) (c : Fin 3) :
    val_main_v25 (F := Ideal) x0 x1 (ix3 r p c)
      = Cert.Voxel.dev (fun p => x0 (ix3 r p c.castSucc)) (Cert.Voxel.cnt (x1 (ix1 r))) p := by
  rw [val_main_v25_apply, val_main_v23_apply, val_main_v5_apply, val_main_v22_apply, val_main_v21_apply,
    val_main_v24_apply, val_main_v13_apply]
  have e5 : idx_main_v5 (ix3 r p c) = ix3 r p c.castSucc :=
    funext fun a => Fin.ext (by match a with | ⟨0, _⟩ => rfl | ⟨1, _⟩ => rfl | ⟨2, _⟩ => rfl)
  have e21 : idx_main_v21 (idx_main_v22 (ix3 r p c)) = ix2 r c :=
    funext fun a => Fin.ext (by match a with | ⟨0, _⟩ => rfl | ⟨1, _⟩ => rfl)
  have e13 : idx_main_v13 (idx_main_v24 (ix3 r p c)) = ix2 r p :=
    funext fun a => Fin.ext (by match a with | ⟨0, _⟩ => rfl | ⟨1, _⟩ => rfl)
  rw [e5, e21, e13, v20_at, v12_at]
  rfl

/-- The sum of the squared deviations of channel `c`. -/
theorem v27_at (x0 : (⟨S200000x32x4, .f32⟩ : BufTy).Contents (Elt Ideal)) (x1 : (⟨S200000, .i32⟩ : BufTy).Contents (Elt Ideal))
    (r : Fin 200000) (c : Fin 3) :
    val_main_v27 (F := Ideal) x0 x1 (ix2 r c)
      = ∑ p : Fin 32, Cert.Voxel.dev (fun p => x0 (ix3 r p c.castSucc)) (Cert.Voxel.cnt (x1 (ix1 r))) p
          * Cert.Voxel.dev (fun p => x0 (ix3 r p c.castSucc)) (Cert.Voxel.cnt (x1 (ix1 r))) p := by
  rw [val_main_v27_apply, val_main_cst_3_apply, Ideal.ofBits_def, Ideal.ofBits_zero_f32, zero_add]
  refine Finset.sum_congr rfl fun k _ => ?_
  have e : idx_main_v27 (ix2 r c) k = ix3 r k c :=
    funext fun a => Fin.ext (by match a with | ⟨0, _⟩ => rfl | ⟨1, _⟩ => rfl | ⟨2, _⟩ => rfl)
  rw [e, val_main_v26_apply, v25_at]
  rfl

theorem v28_at (x1 : (⟨S200000, .i32⟩ : BufTy).Contents (Elt Ideal)) (r : Fin 200000) (c : Fin 3) :
    val_main_v28 (F := Ideal) x1 (ix2 r c) = Cert.Voxel.den (Cert.Voxel.cnt (x1 (ix1 r))) := by
  rw [val_main_v28_apply]
  have e : idx_main_v28 (ix2 r c) = ix2 r (0 : Fin 1) :=
    funext fun a => Fin.ext (by match a with | ⟨0, _⟩ => rfl | ⟨1, _⟩ => rfl)
  rw [e, v15_at]

/-- The mean squared deviation of channel `c`. -/
theorem v29_at (x0 : (⟨S200000x32x4, .f32⟩ : BufTy).Contents (Elt Ideal)) (x1 : (⟨S200000, .i32⟩ : BufTy).Contents (Elt Ideal))
    (r : Fin 200000) (c : Fin 3) :
    val_main_v29 (F := Ideal) x0 x1 (ix2 r c)
      = Cert.Voxel.spread (fun p => x0 (ix3 r p c.castSucc)) (Cert.Voxel.cnt (x1 (ix1 r))) := by
  rw [val_main_v29_apply, v27_at, v28_at]
  rfl

/-- The three spreads added up. -/
theorem v30_at (x0 : (⟨S200000x32x4, .f32⟩ : BufTy).Contents (Elt Ideal)) (x1 : (⟨S200000, .i32⟩ : BufTy).Contents (Elt Ideal))
    (r : Fin 200000) :
    val_main_v30 (F := Ideal) x0 x1 (ix1 r)
      = ∑ c : Fin 3, Cert.Voxel.spread (fun p => x0 (ix3 r p c.castSucc)) (Cert.Voxel.cnt (x1 (ix1 r))) := by
  rw [val_main_v30_apply, val_main_cst_4_apply, Ideal.ofBits_def, Ideal.ofBits_zero_f32, zero_add]
  refine Finset.sum_congr rfl fun k _ => ?_
  have e : idx_main_v30 (ix1 r) k = ix2 r k :=
    funext fun a => Fin.ext (by match a with | ⟨0, _⟩ => rfl | ⟨1, _⟩ => rfl)
  rw [e, v29_at]

/-- `exp (-(1/2) · the average spread)`. -/
theorem v36_at (x0 : (⟨S200000x32x4, .f32⟩ : BufTy).Contents (Elt Ideal)) (x1 : (⟨S200000, .i32⟩ : BufTy).Contents (Elt Ideal))
    (r : Fin 200000) (u : Fin 1) :
    val_main_v36 (F := Ideal) x0 x1 (ix2 r u)
      = Cert.Voxel.pvar (fun p c => x0 (ix3 r p c)) (Cert.Voxel.cnt (x1 (ix1 r))) := by
  rw [val_main_v36_apply, val_main_v35_apply, val_main_v34_apply, val_main_cst_6_apply, val_main_v33_apply,
    val_main_v32_apply, val_main_cst_5_apply, val_main_v31_apply]
  have e : idx_main_v31 (ix2 r u) = ix1 r := funext fun a => Fin.ext (by match a with | ⟨0, _⟩ => rfl)
  rw [e, v30_at]
  rfl

/-- The clipped density. -/
theorem v4_at (x1 : (⟨S200000, .i32⟩ : BufTy).Contents (Elt Ideal)) (r : Fin 200000) (u : Fin 1) :
    val_main_v4 (F := Ideal) x1 (ix2 r u) = Cert.Voxel.pden (Cert.Voxel.cnt (x1 (ix1 r))) := by
  rw [val_main_v4_apply]
  have e : idx_main_v4 (ix2 r u) = ix1 r := funext fun a => Fin.ext (by match a with | ⟨0, _⟩ => rfl)
  rw [e]
  rfl

/-! ## The five features laid side by side -/

/-- Column 0 of the feature row is the density. -/
theorem v37_col0 (x0 : (⟨S200000x32x4, .f32⟩ : BufTy).Contents (Elt Ideal)) (x1 : (⟨S200000, .i32⟩ : BufTy).Contents (Elt Ideal))
    (r : Fin 200000) :
    val_main_v37 (F := Ideal) x0 x1 (ix2 r (0 : Fin 5)) = val_main_v4 (F := Ideal) x1 (ix2 r (0 : Fin 1)) := by
  unfold val_main_v37
  refine concatenate_apply_piece (1 : Fin S200000x5.rank) _ _ (ix2 r (0 : Fin 5)) 0 (by simp) S200000x1
    (val_main_v4 (F := Ideal) x1) rfl rfl 0 rfl (ix2 r (0 : Fin 1)) (fun b hb => ?_) rfl
  match b with
  | ⟨0, _⟩ => rfl
  | ⟨1, _⟩ => exact absurd rfl hb

/-- Column 1 is the exponential term. -/
theorem v37_col1 (x0 : (⟨S200000x32x4, .f32⟩ : BufTy).Contents (Elt Ideal)) (x1 : (⟨S200000, .i32⟩ : BufTy).Contents (Elt Ideal))
    (r : Fin 200000) :
    val_main_v37 (F := Ideal) x0 x1 (ix2 r (1 : Fin 5)) = val_main_v36 (F := Ideal) x0 x1 (ix2 r (0 : Fin 1)) := by
  unfold val_main_v37
  refine concatenate_apply_piece (1 : Fin S200000x5.rank) _ _ (ix2 r (1 : Fin 5)) 1 (by simp) S200000x1
    (val_main_v36 (F := Ideal) x0 x1) rfl rfl 1 rfl (ix2 r (0 : Fin 1)) (fun b hb => ?_) rfl
  match b with
  | ⟨0, _⟩ => rfl
  | ⟨1, _⟩ => exact absurd rfl hb

/-- Columns 2, 3, 4 are the three channel means. -/
theorem v37_col2 (x0 : (⟨S200000x32x4, .f32⟩ : BufTy).Contents (Elt Ideal)) (x1 : (⟨S200000, .i32⟩ : BufTy).Contents (Elt Ideal))
    (r : Fin 200000) (k : Fin 5) (c : Fin 3) (hkc : 2 + c.val = k.val) :
    val_main_v37 (F := Ideal) x0 x1 (ix2 r k) = val_main_v20 (F := Ideal) x0 x1 (ix2 r c) := by
  unfold val_main_v37
  refine concatenate_apply_piece (1 : Fin S200000x5.rank) _ _ (ix2 r k) 2 (by simp) S200000x3
    (val_main_v20 (F := Ideal) x0 x1) rfl rfl 2 rfl (ix2 r c) (fun b hb => ?_) hkc
  match b with
  | ⟨0, _⟩ => rfl
  | ⟨1, _⟩ => exact absurd rfl hb

/-! ## The perceptron -/

/-- The first layer's product at unit `o`: the five features against column `o` of the weights. -/
theorem v38_at (x0 : (⟨S200000x32x4, .f32⟩ : BufTy).Contents (Elt Ideal)) (x1 : (⟨S200000, .i32⟩ : BufTy).Contents (Elt Ideal))
    (x3 : (⟨S5x16, .f32⟩ : BufTy).Contents (Elt Ideal)) (r : Fin 200000) (o : Fin 16) :
    val_main_v38 (F := Ideal) x0 x1 x3 (ix2 r o)
      = Cert.Voxel.pden (Cert.Voxel.cnt (x1 (ix1 r))) * x3 (ix2 (0 : Fin 5) o)
        + Cert.Voxel.pvar (fun p c => x0 (ix3 r p c)) (Cert.Voxel.cnt (x1 (ix1 r))) * x3 (ix2 (1 : Fin 5) o)
        + Cert.Voxel.mean (fun p => x0 (ix3 r p (0 : Fin 4))) (Cert.Voxel.cnt (x1 (ix1 r))) * x3 (ix2 (2 : Fin 5) o)
        + Cert.Voxel.mean (fun p => x0 (ix3 r p (1 : Fin 4))) (Cert.Voxel.cnt (x1 (ix1 r))) * x3 (ix2 (3 : Fin 5) o)
        + Cert.Voxel.mean (fun p => x0 (ix3 r p (2 : Fin 4))) (Cert.Voxel.cnt (x1 (ix1 r))) * x3 (ix2 (4 : Fin 5) o) := by
  have el : ∀ k : Fin 5, lidx_main_v38 (ix2 r o) k = ix2 r k := fun k =>
    funext fun a => Fin.ext (by match a with | ⟨0, _⟩ => rfl | ⟨1, _⟩ => rfl)
  have er : ∀ k : Fin 5, ridx_main_v38 (ix2 r o) k = ix2 k o := fun k =>
    funext fun a => Fin.ext (by match a with | ⟨0, _⟩ => rfl | ⟨1, _⟩ => rfl)
  rw [val_main_v38_apply, Fin.sum_univ_five, el 0, el 1, el 2, el 3, el 4, er 0, er 1, er 2, er 3, er 4,
    v37_col0, v37_col1, v37_col2 x0 x1 r 2 0 rfl, v37_col2 x0 x1 r 3 1 rfl, v37_col2 x0 x1 r 4 2 rfl,
    v4_at, v36_at, v20_at, v20_at, v20_at]
  rfl

/-- The hidden layer's unit `o`. -/
theorem v42_at (x0 : (⟨S200000x32x4, .f32⟩ : BufTy).Contents (Elt Ideal)) (x1 : (⟨S200000, .i32⟩ : BufTy).Contents (Elt Ideal))
    (x3 : (⟨S5x16, .f32⟩ : BufTy).Contents (Elt Ideal)) (x4 : (⟨S16, .f32⟩ : BufTy).Contents (Elt Ideal))
    (r : Fin 200000) (o : Fin 16) :
    val_main_v42 (F := Ideal) x0 x1 x3 x4 (ix2 r o)
      = Cert.Voxel.hid (fun p c => x0 (ix3 r p c)) (Cert.Voxel.cnt (x1 (ix1 r))) (fun k o => x3 (ix2 k o))
          (fun o => x4 (ix1 o)) o := by
  rw [val_main_v42_apply, val_main_v41_apply, v38_at, val_main_v40_apply, val_main_v39_apply,
    val_main_call2_v0_apply, val_main_call2_cst_apply]
  have e : idx_main_v39 (idx_main_v40 (ix2 r o)) = ix1 o :=
    funext fun a => Fin.ext (by match a with | ⟨0, _⟩ => rfl)
  rw [e]
  rfl

/-- The output layer's sum plus its bias. -/
theorem v46_at (x0 : (⟨S200000x32x4, .f32⟩ : BufTy).Contents (Elt Ideal)) (x1 : (⟨S200000, .i32⟩ : BufTy).Contents (Elt Ideal))
    (x3 : (⟨S5x16, .f32⟩ : BufTy).Contents (Elt Ideal)) (x4 : (⟨S16, .f32⟩ : BufTy).Contents (Elt Ideal))
    (x5 : (⟨S16x1, .f32⟩ : BufTy).Contents (Elt Ideal)) (x6 : (⟨S1, .f32⟩ : BufTy).Contents (Elt Ideal))
    (r : Fin 200000) :
    val_main_v46 (F := Ideal) x0 x1 x3 x4 x5 x6 (ix2 r (0 : Fin 1))
      = (∑ o : Fin 16, Cert.Voxel.hid (fun p c => x0 (ix3 r p c)) (Cert.Voxel.cnt (x1 (ix1 r))) (fun k o => x3 (ix2 k o))
          (fun o => x4 (ix1 o)) o * x5 (ix2 o (0 : Fin 1))) + x6 (ix1 (0 : Fin 1)) := by
  rw [val_main_v46_apply, val_main_v43_apply, val_main_v45_apply, val_main_v44_apply]
  have e6 : idx_main_v44 (idx_main_v45 (ix2 r (0 : Fin 1))) = ix1 (0 : Fin 1) :=
    funext fun a => Fin.ext (by match a with | ⟨0, _⟩ => rfl)
  rw [e6]
  have es : ∑ k : Fin 16, val_main_v42 (F := Ideal) x0 x1 x3 x4 (lidx_main_v43 (ix2 r (0 : Fin 1)) k)
        * x5 (ridx_main_v43 (ix2 r (0 : Fin 1)) k)
      = ∑ o : Fin 16, Cert.Voxel.hid (fun p c => x0 (ix3 r p c)) (Cert.Voxel.cnt (x1 (ix1 r))) (fun k o => x3 (ix2 k o))
          (fun o => x4 (ix1 o)) o * x5 (ix2 o (0 : Fin 1)) := by
    refine Finset.sum_congr rfl fun k _ => ?_
    have el : lidx_main_v43 (ix2 r (0 : Fin 1)) k = ix2 r k :=
      funext fun a => Fin.ext (by match a with | ⟨0, _⟩ => rfl | ⟨1, _⟩ => rfl)
    have er : ridx_main_v43 (ix2 r (0 : Fin 1)) k = ix2 k (0 : Fin 1) :=
      funext fun a => Fin.ext (by match a with | ⟨0, _⟩ => rfl | ⟨1, _⟩ => rfl)
    rw [el, er, v42_at]
  rw [es]
  rfl

/-- The reference run's result term is the encoder's array. -/
theorem result_eq (x0 : (⟨S200000x32x4, .f32⟩ : BufTy).Contents (Elt Ideal)) (x1 : (⟨S200000, .i32⟩ : BufTy).Contents (Elt Ideal))
    (x3 : (⟨S5x16, .f32⟩ : BufTy).Contents (Elt Ideal)) (x4 : (⟨S16, .f32⟩ : BufTy).Contents (Elt Ideal))
    (x5 : (⟨S16x1, .f32⟩ : BufTy).Contents (Elt Ideal)) (x6 : (⟨S1, .f32⟩ : BufTy).Contents (Elt Ideal)) :
    val_main_v52 (F := Ideal) x0 x1 x3 x4 x5 x6 = Cert.Voxel.G x0 x1 x3 x4 x5 x6 := by
  funext i
  obtain ⟨r, u, rfl⟩ : ∃ (r : Fin 200000) (u : Fin 1), i = ix2 r u := ⟨i 0, i 1, eq_ix2 i⟩
  obtain rfl : u = 0 := Subsingleton.elim u 0
  -- the last four operations spell the logistic of the output layer's value, with the word of 1.0 for one
  rw [val_main_v52_apply, val_main_v51_apply, val_main_cst_8_apply, val_main_v50_apply, val_main_v49_apply,
    val_main_cst_7_apply, val_main_v48_apply, val_main_v47_apply, v46_at]
  show _ = Cert.Voxel.row x0 x1 x3 x4 x5 x6 r
  unfold Cert.Voxel.row Cert.Voxel.occ Ideal.logistic
  simp only [Ideal.hostDivf_def, Ideal.ofBits_def, Ideal.addf_def, Ideal.hostUnary_exp_def, Ideal.hostNegf_def,
    Ideal.negf_def, Cert.Voxel.wOne_eq]

end Cert.ReferenceIdeal.RefValue

end
-- ==== Proof.KerLayout.lean ====
/-
  Layout operations of the kernel's body read at an index: a column repeated over columns, one entry repeated down a
  column, a vector viewed as a column, and the first three of four columns.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Idealize.ShloMosaic Idealize.ShloMosaic.ValueIdx

/-- A column `[R, 1]` repeated over `C` columns. -/
theorem broadcastTo_col_apply {α : Type} {R C : Nat} (x : (⟨2, ![R, 1]⟩ : Shape).Idx → α)
    (h : (⟨2, ![R, 1]⟩ : Shape).Broadcasts ⟨2, ![R, C]⟩) (r : Fin R) (j : Fin C) :
    broadcastTo ⟨2, ![R, C]⟩ x h (ix2 r j) = x (ix2 r (0 : Fin 1)) := by
  refine broadcastTo_apply x h (ix2 r j) (ix2 r (0 : Fin 1)) fun ax => ?_
  match ax with
  | ⟨0, _⟩ =>
    show r.val = if R = 1 then 0 else r.val
    split
    · have := r.isLt; omega
    · rfl
  | ⟨1, _⟩ => rfl

/-- A single entry `[1, 1]` repeated down a column `[R, 1]`. -/
theorem broadcastTo_one_col_apply {α : Type} {R : Nat} (x : (⟨2, ![1, 1]⟩ : Shape).Idx → α)
    (h : (⟨2, ![1, 1]⟩ : Shape).Broadcasts ⟨2, ![R, 1]⟩) (r : Fin R) (u : Fin 1) :
    broadcastTo ⟨2, ![R, 1]⟩ x h (ix2 r u) = x (ix2 (0 : Fin 1) (0 : Fin 1)) := by
  refine broadcastTo_apply x h (ix2 r u) (ix2 (0 : Fin 1) (0 : Fin 1)) fun ax => ?_
  match ax with
  | ⟨0, _⟩ => rfl
  | ⟨1, _⟩ => rfl

/-- A vector `[R]` viewed as a column `[R, 1]`. -/
theorem shapeCast_col_apply {α : Type} {R : Nat} (x : (⟨1, ![R]⟩ : Shape).Idx → α)
    (h : (⟨1, ![R]⟩ : Shape).ShapeCasts ⟨2, ![R, 1]⟩) (r : Fin R) (u : Fin 1) :
    shapeCast ⟨2, ![R, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- The first three of four columns. -/
theorem slice_cols3_apply {α : Type} {R : Nat} (x : (⟨2, ![R, 4]⟩ : Shape).Idx → α)
    (h : (⟨2, ![R, 4]⟩ : Shape).Slices ![0, 0] ⟨2, ![R, 3]⟩) (r : Fin R) (c : Fin 3) :
    extractStridedSlice ⟨2, ![R, 3]⟩ ![0, 0] x h (ix2 r c) = x (ix2 r c.castSucc) :=
  extractStridedSlice_apply ![0, 0] x h (ix2 r c) (ix2 r c.castSucc) (fun a => match a with
    | ⟨0, _⟩ => by show r.val = 0 + r.val; omega
    | ⟨1, _⟩ => by show c.val = 0 + c.val; omega)

end Cert.KernelIdeal.RowValue

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.KerHead.lean ====
/-
  The first half of the kernel's body at one row: the live mask of a lane (the lane's point number is the lane
  number divided by four, compared with the row's float count), the divisor `max 1 ν`, and the channel means (the
  product with the lanes-to-channels selector regroups the 128 lanes of a row into the 32 points of a channel).
-/
import proofs.«136101_j55808805044588_1_alg».proof.Proof.Gen.KernelIdeal.Skeleton
import proofs.«136101_j55808805044588_1_alg».proof.Proof.VoxelSpec
import proofs.«136101_j55808805044588_1_alg».proof.Proof.KerLayout
import proofs.«136101_j55808805044588_1_alg».proof.Proof.LibPlainMatmul
import Idealize.ShloMosaic.Lib.ValueIdx
import Idealize.ShloMosaic.Lib.KernelVsHost
import Idealize.ShloMosaic.Lib.StableHlo.Predicate
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ## The lane's point number -/

/-- The floor of a signed word by four, as the body spells it: the signed quotient, lowered by one when the word's sign
    differs from four's and the remainder is not zero. -/
def pointWord (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 4#32 0#32)) (Scalar.extui (Scalar.cmpi .slt 4#32 0#32))))
      (IntOp.cmpi .ne (IntOp.remsi .vector x 4#32) 0#32))
    (IntOp.subi (IntOp.divsi .vector x 4#32) 1#32)
    (IntOp.divsi .vector x 4#32)

/-- On the 128 lane numbers it is the lane number divided by four. -/
theorem pointWord_lane : ∀ j : Fin 128, pointWord (BitVec.ofNat 32 j.val) = BitVec.ofNat 32 (j.val / 4) := by
  decide

/-- A bit widened to a word and read as a signed integer, as an extended real. -/
theorem bit_float (b : BitVec 1) : ((((b.setWidth 32).toInt : ℤ) : ℝ) : EReal) = if b = 1#1 then 1 else 0 := by
  have h : ∀ b : BitVec 1, (b.setWidth 32).toInt = if b = 1#1 then (1 : ℤ) else 0 := by decide
  rw [h b]
  split <;> simp

/-- The ordered less-than of two extended reals answers one exactly when the first is below the second. -/
theorem cmp_olt_eq_one (x y : EReal) : Ideal.cmp .olt x y = 1#1 ↔ x < y := by
  show BitVec.ofBool (decide (x < y)) = 1#1 ↔ _
  rw [StableHlo.Predicate.ofBool_eq_one_iff, decide_eq_true_iff]

/-! ## The loads as they are -/

theorem pay2_eq (v0 : Vec Ideal S2000x128 .f32) : k0_pay2 (F := Ideal) v0 = v0 := shapeCast_self _ _

theorem pay3_eq (v2 : Vec Ideal S2000x1 .f32) : k0_pay3 (F := Ideal) v2 = v2 := shapeCast_self _ _

/-! ## The mask, the divisor, the means -/

/-- Lane `j` of row `r` is live when its point `j / 4` is below the row's count. -/
theorem mask_at (v2 : Vec Ideal S2000x1 .f32) (r : Fin 2000) (j : Fin 128) :
    k0_pay4 (F := Ideal) v2 (ix2 r j)
      = Cert.Voxel.live (v2 (ix2 r (0 : Fin 1))) ⟨j.val / 4, by have := j.isLt; omega⟩ := by
  have hb : broadcastTo S2000x128 (k0_pay3 (F := Ideal) v2) broadcasts_S2000x1_S2000x128 (ix2 r j) = v2 (ix2 r (0 : Fin 1)) := by
    rw [pay3_eq]; exact broadcastTo_col_apply v2 _ r j
  have hi : iota .tc S2000x128 32 [1] iota_S2000x128_d1_w32 (ix2 r j) = BitVec.ofNat 32 j.val :=
    iota_single_apply .tc _ 32 1 _ (ix2 r j)
  show FloatOps.sitofp .f32 (BitVec.setWidth 32 (FloatOps.cmpf .olt
      (FloatOps.sitofp .f32 (pointWord (iota .tc S2000x128 32 [1] iota_S2000x128_d1_w32 (ix2 r j))))
      (broadcastTo S2000x128 (k0_pay3 (F := Ideal) v2) broadcasts_S2000x1_S2000x128 (ix2 r j)))) = _
  rw [hb, hi, pointWord_lane]
  show (((((Ideal.cmp .olt (((BitVec.ofNat 32 (j.val / 4)).toInt : ℝ) : EReal) (v2 (ix2 r (0 : Fin 1)))).setWidth 32).toInt : ℤ) : ℝ) : EReal) = _
  rw [bit_float, StableHlo.Predicate.toInt_ofNat_small (j.val / 4) (by have := j.isLt; omega)]
  unfold Cert.Voxel.live
  exact if_congr (cmp_olt_eq_one _ _) rfl rfl

/-- The divisor of row `r`. -/
theorem den_at (v2 : Vec Ideal S2000x1 .f32) (r : Fin 2000) (u : Fin 1) :
    k0_pay5 (F := Ideal) v2 (ix2 r u) = Cert.Voxel.den (v2 (ix2 r (0 : Fin 1))) := by
  have hu : u = 0 := Subsingleton.elim _ _
  subst hu
  show max (Ideal.ofBits .f32 0x3F800000#32) (k0_pay3 (F := Ideal) v2 (ix2 r (0 : Fin 1))) = _
  rw [pay3_eq]
  rfl

/-- The mean of channel `c` over the live points of row `r`. -/
theorem mean_at (v0 : Vec Ideal S2000x128 .f32) (v2 : Vec Ideal S2000x1 .f32) (v4 : Vec Ideal S128x4 .f32)
    (hsel : ∀ (j : Fin 128) (c : Fin 4), v4 (ix2 j c) = if j.val % 4 = c.val then 1 else 0) (r : Fin 2000) (c : Fin 4) :
    k0_pay6 (F := Ideal) v0 v2 v4 (ix2 r c)
      = Cert.Voxel.mean (fun p => v0 (ix2 r (Cert.Voxel.lane p c))) (v2 (ix2 r (0 : Fin 1))) := by
  have hd : broadcastTo S2000x4 (k0_pay5 (F := Ideal) v2) broadcasts_S2000x1_S2000x4 (ix2 r c) = Cert.Voxel.den (v2 (ix2 r (0 : Fin 1))) := by
    rw [broadcastTo_col_apply (k0_pay5 (F := Ideal) v2) _ r c, den_at]
  have hn : FloatOps.matmul (φ₁ := .f32) (φ₂ := .f32) (DotDims.plain 2000 128 4) none (mulf (k0_pay2 (F := Ideal) v0) (k0_pay4 (F := Ideal) v2)) v4
        (constant ⟨2, ![2000, 4]⟩ .f32 0x00000000#32) (ix2 r c)
      = Cert.Voxel.msum (fun p => v0 (ix2 r (Cert.Voxel.lane p c))) (v2 (ix2 r (0 : Fin 1))) := by
    rw [PlainMatmul.matmul_plain_zero_apply,
      Cert.Voxel.sum_sel (fun j => mulf (k0_pay2 (F := Ideal) v0) (k0_pay4 (F := Ideal) v2) (ix2 r j)) (fun j => v4 (ix2 j c)) c
        (fun j => hsel j c)]
    unfold Cert.Voxel.msum
    refine Finset.sum_congr rfl fun p _ => ?_
    show k0_pay2 (F := Ideal) v0 (ix2 r (Cert.Voxel.lane p c)) * k0_pay4 (F := Ideal) v2 (ix2 r (Cert.Voxel.lane p c)) = _
    rw [pay2_eq, mask_at]
    congr 2
    apply Fin.ext
    show (4 * p.val + c.val) / 4 = p.val
    have := c.isLt; omega
  show Ideal.div (FloatOps.matmul (φ₁ := .f32) (φ₂ := .f32) (DotDims.plain 2000 128 4) none (mulf (k0_pay2 (F := Ideal) v0) (k0_pay4 (F := Ideal) v2)) v4
        (constant ⟨2, ![2000, 4]⟩ .f32 0x00000000#32) (ix2 r c))
      (broadcastTo S2000x4 (k0_pay5 (F := Ideal) v2) broadcasts_S2000x1_S2000x4 (ix2 r c)) = _
  rw [hn, hd]
  rfl

end Cert.KernelIdeal.RowValue

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.KerTail.lean ====
/-
  The second half of the kernel's body at one row: from the row's features, float count, live mask, divisor and
  channel means, the spreads (the selector products regroup the 128 lanes by channel), the five perceptron inputs,
  the two layers and the logistic: the voxel encoder's occupancy.
-/
import proofs.«136101_j55808805044588_1_alg».proof.Proof.Gen.KernelIdeal.Skeleton
import proofs.«136101_j55808805044588_1_alg».proof.Proof.VoxelSpec
import proofs.«136101_j55808805044588_1_alg».proof.Proof.KerLayout
import proofs.«136101_j55808805044588_1_alg».proof.Proof.LibPlainMatmul
import proofs.«136101_j55808805044588_1_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ## The two selector products -/

/-- The product of the channel means with the channels-to-lanes selector: lane `j` holds the mean of channel `j mod 4`. -/
theorem selt_row (D : DotDims S2000x4 S4x128 S2000x128) (hD : D = DotDims.plain 2000 4 128)
    (a : FVec Ideal S2000x4 .f32) (s : FVec Ideal S4x128 .f32)
    (hs : ∀ (c : Fin 4) (j : Fin 128), s (ix2 c j) = if j.val % 4 = c.val then 1 else 0)
    (r : Fin 2000) (j : Fin 128) :
    matmul D none a s (constant S2000x128 .f32 0x00000000#32) (ix2 r j)
      = a (ix2 r (⟨j.val % 4, Nat.mod_lt _ (by decide)⟩ : Fin 4)) := by
  subst hD
  refine (PlainMatmul.matmul_plain_zero_apply 2000 4 128 none a s r j).trans ?_
  refine Cert.Voxel.sum_selt (fun c => a (ix2 r c)) (fun c => s (ix2 c j)) ⟨j.val % 4, Nat.mod_lt _ (by decide)⟩ (fun c => ?_)
  show s (ix2 c j) = _
  rw [hs]
  by_cases h : j.val % 4 = c.val
  · rw [if_pos h, if_pos (Fin.ext h.symm)]
  · rw [if_neg h, if_neg (fun h' => h (by subst h'; rfl))]

/-- The product of a row of 128 lanes with the lanes-to-channels selector: channel `c` collects the lanes `4 p + c`. -/
theorem sel_row (D : DotDims S2000x128 S128x4 S2000x4) (hD : D = DotDims.plain 2000 128 4)
    (w : FVec Ideal S2000x128 .f32) (s : FVec Ideal S128x4 .f32)
    (hs : ∀ (j : Fin 128) (c : Fin 4), s (ix2 j c) = if j.val % 4 = c.val then 1 else 0)
    (r : Fin 2000) (c : Fin 4) :
    matmul D none w s (constant S2000x4 .f32 0x00000000#32) (ix2 r c)
      = ∑ p : Fin 32, w (ix2 r (Cert.Voxel.lane p c)) := by
  subst hD
  refine (PlainMatmul.matmul_plain_zero_apply 2000 128 4 none w s r c).trans ?_
  exact Cert.Voxel.sum_sel (fun j => w (ix2 r j)) (fun j => s (ix2 j c)) c (fun j => hs j c)

/-! ## The spreads -/

/-- A lane's deviation: the feature less its channel's mean, times the live bit. -/
theorem dev_row (D : DotDims S2000x4 S4x128 S2000x128) (hD : D = DotDims.plain 2000 4 128)
    (v1 v35 : FVec Ideal S2000x128 .f32) (v41 : FVec Ideal S2000x4 .f32) (v5 : FVec Ideal S4x128 .f32)
    (X : Fin 32 → Fin 4 → EReal) (ν : EReal) (r : Fin 2000)
    (hselt : ∀ (c : Fin 4) (j : Fin 128), v5 (ix2 c j) = if j.val % 4 = c.val then 1 else 0)
    (h1 : ∀ (p : Fin 32) (c : Fin 4), v1 (ix2 r (Cert.Voxel.lane p c)) = X p c)
    (h35 : ∀ (p : Fin 32) (c : Fin 4), v35 (ix2 r (Cert.Voxel.lane p c)) = Cert.Voxel.live ν p)
    (h41 : ∀ c : Fin 4, v41 (ix2 r c) = Cert.Voxel.mean (fun p => X p c) ν) (p : Fin 32) (c : Fin 4) :
    mulf (subf v1 (matmul D none v41 v5 (constant S2000x128 .f32 0x00000000#32))) v35 (ix2 r (Cert.Voxel.lane p c))
      = Cert.Voxel.dev (fun p => X p c) ν p := by
  rw [mulf_apply, subf_apply, selt_row D hD v41 v5 hselt r (Cert.Voxel.lane p c), h1, h35]
  have hq : (⟨(Cert.Voxel.lane p c).val % 4, Nat.mod_lt _ (by decide)⟩ : Fin 4) = c :=
    Fin.ext (by show (4 * p.val + c.val) % 4 = c.val; have := c.isLt; omega)
  rw [hq, h41]
  rfl

/-- The mean squared deviation of channel `c`: the squared deviations regrouped by the selector, over the divisor. -/
theorem spread_row (D : DotDims S2000x128 S128x4 S2000x4) (hD : D = DotDims.plain 2000 128 4)
    (w : FVec Ideal S2000x128 .f32) (v4 : FVec Ideal S128x4 .f32) (v39 : FVec Ideal S2000x1 .f32)
    (hb : S2000x1.Broadcasts S2000x4)
    (X : Fin 32 → Fin 4 → EReal) (ν : EReal) (r : Fin 2000)
    (hsel : ∀ (j : Fin 128) (c : Fin 4), v4 (ix2 j c) = if j.val % 4 = c.val then 1 else 0)
    (hw : ∀ (p : Fin 32) (c : Fin 4), w (ix2 r (Cert.Voxel.lane p c)) = Cert.Voxel.dev (fun p => X p c) ν p)
    (h39 : v39 (ix2 r (0 : Fin 1)) = Cert.Voxel.den ν) (c : Fin 4) :
    divf (matmul D none (mulf w w) v4 (constant S2000x4 .f32 0x00000000#32)) (broadcastTo S2000x4 v39 hb) (ix2 r c)
      = Cert.Voxel.spread (fun p => X p c) ν := by
  rw [divf_apply, sel_row D hD (mulf w w) v4 hsel r c, broadcastTo_col_apply v39 hb r c, h39]
  unfold Cert.Voxel.spread
  refine congrArg (fun t => Ideal.div t (Cert.Voxel.den ν)) (Finset.sum_congr rfl fun p _ => ?_)
  rw [mulf_apply, hw]

/-! ## The exponential term and the density -/

/-- `exp (-(1/2) · the average of the first three channels' spreads)`. -/
theorem pvar_row (s : FVec Ideal S2000x4 .f32) (hsl : S2000x4.Slices ![0, 0] S2000x3) (hred : S2000x3.Reduces [1] S2000)
    (hφ : FKind.Formats FTy.f32) (hacc : (0x00000000#32 : BitVec FTy.f32.bits) = FKind.add.neutral FTy.f32 hφ)
    (hsc : S2000.ShapeCasts S2000x1) (X : Fin 32 → Fin 4 → EReal) (ν : EReal) (r : Fin 2000) (u : Fin 1)
    (hs : ∀ c : Fin 4, s (ix2 r c) = Cert.Voxel.spread (fun p => X p c) ν) :
    exp (mulf (broadcast S2000x1 (FloatOps.ofBits (F := Ideal) .f32 0xBF000000#32))
        (divf (shapeCast S2000x1 (multiReduction .add [1] S2000 (extractStridedSlice S2000x3 ![0, 0] s hsl)
            0x00000000#32 hred hφ hacc) hsc)
          (broadcast S2000x1 (FloatOps.ofBits (F := Ideal) .f32 0x40400000#32)))) (ix2 r u)
      = Cert.Voxel.pvar X ν := by
  show Ideal.exp (Ideal.ofBits .f32 0xBF000000#32
      * Ideal.div (shapeCast S2000x1 (multiReduction .add [1] S2000 (extractStridedSlice S2000x3 ![0, 0] s hsl)
            0x00000000#32 hred hφ hacc) hsc (ix2 r u)) (Ideal.ofBits .f32 0x40400000#32)) = _
  rw [shapeCast_col_apply _ hsc r u]
  refine (congrArg (fun t => Ideal.exp (Ideal.ofBits .f32 0xBF000000#32 * Ideal.div t (Ideal.ofBits .f32 0x40400000#32)))
    (RowReduce.multiReduction_add_row _ _ hred hφ hacc r)).trans ?_
  unfold Cert.Voxel.pvar
  refine congrArg (fun t => Ideal.exp (Ideal.ofBits .f32 0xBF000000#32 * Ideal.div t (Ideal.ofBits .f32 0x40400000#32)))
    (Finset.sum_congr rfl fun k _ => ?_)
  rw [slice_cols3_apply s hsl r k, hs]

/-- The clipped density `min 10 ν / 10`. -/
theorem pden_row (v3 : FVec Ideal S2000x1 .f32) (ν : EReal) (r : Fin 2000) (u : Fin 1) (h3 : v3 (ix2 r (0 : Fin 1)) = ν) :
    divf (minimumf (broadcast S2000x1 (FloatOps.ofBits (F := Ideal) .f32 0x41200000#32)) v3)
        (broadcast S2000x1 (FloatOps.ofBits (F := Ideal) .f32 0x41200000#32)) (ix2 r u)
      = Cert.Voxel.pden ν := by
  obtain rfl : u = 0 := Subsingleton.elim u 0
  show Ideal.div (min (Ideal.ofBits .f32 0x41200000#32) (v3 (ix2 r (0 : Fin 1)))) (Ideal.ofBits .f32 0x41200000#32) = _
  rw [h3]
  rfl

/-! ## The five features laid side by side -/

/-- Column 0 of the feature row is the first piece. -/
theorem feat_col0 (a b : FVec Ideal S2000x1 .f32) (m : FVec Ideal S2000x3 .f32)
    (hc : Shape.Concatenates [S2000x1, S2000x1, S2000x3] S2000x5 1) (r : Fin 2000) :
    (concatenate S2000x5 1 [⟨S2000x1, a⟩, ⟨S2000x1, b⟩, ⟨S2000x3, m⟩] hc : FVec Ideal S2000x5 .f32) (ix2 r (0 : Fin 5))
      = a (ix2 r (0 : Fin 1)) := by
  refine concatenate_apply_piece (1 : Fin S2000x5.rank) _ _ (ix2 r (0 : Fin 5)) 0 (by simp) S2000x1 a rfl rfl 0 rfl
    (ix2 r (0 : Fin 1)) (fun d hd => ?_) rfl
  match d with
  | ⟨0, _⟩ => rfl
  | ⟨1, _⟩ => exact absurd rfl hd

/-- Column 1 is the second piece. -/
theorem feat_col1 (a b : FVec Ideal S2000x1 .f32) (m : FVec Ideal S2000x3 .f32)
    (hc : Shape.Concatenates [S2000x1, S2000x1, S2000x3] S2000x5 1) (r : Fin 2000) :
    (concatenate S2000x5 1 [⟨S2000x1, a⟩, ⟨S2000x1, b⟩, ⟨S2000x3, m⟩] hc : FVec Ideal S2000x5 .f32) (ix2 r (1 : Fin 5))
      = b (ix2 r (0 : Fin 1)) := by
  refine concatenate_apply_piece (1 : Fin S2000x5.rank) _ _ (ix2 r (1 : Fin 5)) 1 (by simp) S2000x1 b rfl rfl 1 rfl
    (ix2 r (0 : Fin 1)) (fun d hd => ?_) rfl
  match d with
  | ⟨0, _⟩ => rfl
  | ⟨1, _⟩ => exact absurd rfl hd

/-- Columns 2, 3, 4 are the third piece's three columns. -/
theorem feat_col2 (a b : FVec Ideal S2000x1 .f32) (m : FVec Ideal S2000x3 .f32)
    (hc : Shape.Concatenates [S2000x1, S2000x1, S2000x3] S2000x5 1) (r : Fin 2000) (k : Fin 5) (c : Fin 3)
    (hkc : 2 + c.val = k.val) :
    (concatenate S2000x5 1 [⟨S2000x1, a⟩, ⟨S2000x1, b⟩, ⟨S2000x3, m⟩] hc : FVec Ideal S2000x5 .f32) (ix2 r k)
      = m (ix2 r c) := by
  refine concatenate_apply_piece (1 : Fin S2000x5.rank) _ _ (ix2 r k) 2 (by simp) S2000x3 m rfl rfl 2 rfl
    (ix2 r c) (fun d hd => ?_) hkc
  match d with
  | ⟨0, _⟩ => rfl
  | ⟨1, _⟩ => exact absurd rfl hd

/-! ## The perceptron -/

/-- A rows-by-columns product into the zero accumulator at one entry. -/
theorem matmul_plain_row (M K N : Nat) (lhs : FVec Ideal ⟨2, ![M, K]⟩ .f32) (rhs : FVec Ideal ⟨2, ![K, N]⟩ .f32)
    (r : Fin M) (n : Fin N) :
    matmul (DotDims.plain M K N) none lhs rhs (constant ⟨2, ![M, N]⟩ .f32 0x00000000#32) (ix2 r n)
      = ∑ k : Fin K, lhs (ix2 r k) * rhs (ix2 k n) :=
  PlainMatmul.matmul_plain_zero_apply M K N none lhs rhs r n

/-- The hidden layer's unit `o` from the five features of the row. -/
theorem hid_row (D : DotDims S2000x5 S5x16 S2000x16) (hD : D = DotDims.plain 2000 5 16)
    (f : FVec Ideal S2000x5 .f32) (v63 : FVec Ideal S5x16 .f32) (v65 : FVec Ideal S1x16 .f32)
    (hsc : S1x16.ShapeCasts S1x16) (hb : S1x16.Broadcasts S2000x16)
    (X : Fin 32 → Fin 4 → EReal) (ν : EReal) (r : Fin 2000)
    (hf0 : f (ix2 r (0 : Fin 5)) = Cert.Voxel.pden ν) (hf1 : f (ix2 r (1 : Fin 5)) = Cert.Voxel.pvar X ν)
    (hf2 : f (ix2 r (2 : Fin 5)) = Cert.Voxel.mean (fun p => X p 0) ν)
    (hf3 : f (ix2 r (3 : Fin 5)) = Cert.Voxel.mean (fun p => X p 1) ν)
    (hf4 : f (ix2 r (4 : Fin 5)) = Cert.Voxel.mean (fun p => X p 2) ν) (o : Fin 16) :
    maximumf (addf (matmul D none f v63 (constant S2000x16 .f32 0x00000000#32))
          (broadcastTo S2000x16 (shapeCast S1x16 v65 hsc) hb))
        (broadcast S2000x16 (FloatOps.ofBits (F := Ideal) .f32 0x00000000#32)) (ix2 r o)
      = Cert.Voxel.hid X ν (fun k o => v63 (ix2 k o)) (fun o => v65 (ix2 (0 : Fin 1) o)) o := by
  subst hD
  rw [maximumf_apply, addf_apply, matmul_plain_row 2000 5 16 f v63 r o, Fin.sum_univ_five, hf0, hf1, hf2, hf3, hf4,
    shapeCast_self, broadcastTo_1b_ab_apply v65 hb r o]
  rfl

/-- The output layer and the logistic. -/
theorem out_row (D : DotDims S2000x16 S16x1 S2000x1) (hD : D = DotDims.plain 2000 16 1)
    (g : FVec Ideal S2000x16 .f32) (v71 : FVec Ideal S16x1 .f32) (v73 : FVec Ideal S1x1 .f32)
    (hsc : S1x1.ShapeCasts S1x1) (hb : S1x1.Broadcasts S2000x1)
    (X : Fin 32 → Fin 4 → EReal) (ν : EReal) (W1 : Fin 5 → Fin 16 → EReal) (b1 : Fin 16 → EReal) (r : Fin 2000) (u : Fin 1)
    (hg : ∀ o : Fin 16, g (ix2 r o) = Cert.Voxel.hid X ν W1 b1 o) :
    logistic (addf (matmul D none g v71 (constant S2000x1 .f32 0x00000000#32))
        (broadcastTo S2000x1 (shapeCast S1x1 v73 hsc) hb)) (ix2 r u)
      = Cert.Voxel.occ X ν W1 b1 (fun o => v71 (ix2 o (0 : Fin 1))) (v73 (ix2 (0 : Fin 1) (0 : Fin 1))) := by
  subst hD
  obtain rfl : u = 0 := Subsingleton.elim u 0
  show Ideal.logistic (matmul (DotDims.plain 2000 16 1) none g v71 (constant S2000x1 .f32 0x00000000#32) (ix2 r (0 : Fin 1))
      + broadcastTo S2000x1 (shapeCast S1x1 v73 hsc) hb (ix2 r (0 : Fin 1))) = _
  rw [matmul_plain_row 2000 16 1 g v71 r 0, shapeCast_self, broadcastTo_one_col_apply v73 hb r 0]
  unfold Cert.Voxel.occ
  simp only [hg]
/-- The body's stored value at row `r`, given what the first half left at that row: the features `X p c` on lane
    `4 p + c`, the float count `ν`, the live mask, the divisor and the four channel means. -/
theorem pay1_row (v1 : FVec Ideal S2000x128 .f32) (v3 : FVec Ideal S2000x1 .f32) (v4 : Vec Ideal S128x4 .f32) (v5 : Vec Ideal S4x128 .f32)
    (v35 : FVec Ideal S2000x128 .f32) (v39 : FVec Ideal S2000x1 .f32) (v41 : FVec Ideal S2000x4 .f32)
    (v63 : Vec Ideal S5x16 .f32) (v65 : Vec Ideal S1x16 .f32) (v71 : Vec Ideal S16x1 .f32) (v73 : Vec Ideal S1x1 .f32)
    (X : Fin 32 → Fin 4 → EReal) (ν : EReal) (r : Fin 2000) (u : Fin 1)
    (hsel : ∀ (j : Fin 128) (c : Fin 4), v4 (ix2 j c) = if j.val % 4 = c.val then 1 else 0)
    (hselt : ∀ (c : Fin 4) (j : Fin 128), v5 (ix2 c j) = if j.val % 4 = c.val then 1 else 0)
    (h1 : ∀ (p : Fin 32) (c : Fin 4), v1 (ix2 r (Cert.Voxel.lane p c)) = X p c)
    (h3 : v3 (ix2 r (0 : Fin 1)) = ν)
    (h35 : ∀ (p : Fin 32) (c : Fin 4), v35 (ix2 r (Cert.Voxel.lane p c)) = Cert.Voxel.live ν p)
    (h39 : v39 (ix2 r (0 : Fin 1)) = Cert.Voxel.den ν)
    (h41 : ∀ c : Fin 4, v41 (ix2 r c) = Cert.Voxel.mean (fun p => X p c) ν) :
    k0_pay1 (F := Ideal) v1 v3 v4 v5 v35 v39 v41 v63 v65 v71 v73 (ix2 r u)
      = Cert.Voxel.occ X ν (fun k o => v63 (ix2 k o)) (fun o => v65 (ix2 (0 : Fin 1) o)) (fun o => v71 (ix2 o (0 : Fin 1)))
          (v73 (ix2 (0 : Fin 1) (0 : Fin 1))) := by
  unfold k0_pay1
  refine out_row _ rfl _ v71 v73 _ _ X ν _ _ r u (fun o => ?_)
  refine hid_row _ rfl _ v63 v65 _ _ X ν r ?_ ?_ ?_ ?_ ?_ o
  · rw [feat_col0]
    exact pden_row v3 ν r 0 h3
  · rw [feat_col1]
    exact pvar_row _ _ _ _ _ _ X ν r 0 (fun c => spread_row _ rfl _ v4 v39 _ X ν r hsel
      (fun p c => dev_row _ rfl v1 v35 v41 v5 X ν r hselt h1 h35 h41 p c) h39 c)
  · rw [feat_col2 _ _ _ _ r 2 0 rfl, slice_cols3_apply]
    exact h41 0
  · rw [feat_col2 _ _ _ _ r 3 1 rfl, slice_cols3_apply]
    exact h41 1
  · rw [feat_col2 _ _ _ _ r 4 2 rfl, slice_cols3_apply]
    exact h41 2

end Cert.KernelIdeal.RowValue

end
-- ==== Proof.KerRow.lean ====
/-
  One row of the kernel's block: what the body stores at row `r` is the voxel encoder's occupancy of that row's
  128 lanes (lane `4 p + c` = point `p`, channel `c`), its float count and the perceptron's weights.
-/
import proofs.«136101_j55808805044588_1_alg».proof.Proof.KerHead
import proofs.«136101_j55808805044588_1_alg».proof.Proof.KerTail

noncomputable section

open scoped BigOperators

namespace Cert.KernelIdeal.RowValue

open Cert.KernelIdeal Cert.KernelIdeal.Gen Idealize.ShloMosaic Idealize.ShloMosaic.ValueIdx

/-- The body's result at row `r`, from the loaded blocks: the feature block `v0` [2000, 128], the float counts `v2`
    [2000, 1], the two 0/1 selectors `v4` [128, 4] and `v5` [4, 128], and the weights. The first half of the body
    leaves the mask, the divisor and the means of the row; the second half turns them into the occupancy. -/
theorem pay_row (v0 : Vec Ideal S2000x128 .f32) (v2 : Vec Ideal S2000x1 .f32) (v4 : Vec Ideal S128x4 .f32) (v5 : Vec Ideal S4x128 .f32)
    (v63 : Vec Ideal S5x16 .f32) (v65 : Vec Ideal S1x16 .f32) (v71 : Vec Ideal S16x1 .f32) (v73 : Vec Ideal S1x1 .f32)
    (hsel : ∀ (j : Fin 128) (c : Fin 4), v4 (ix2 j c) = if j.val % 4 = c.val then 1 else 0)
    (hselt : ∀ (c : Fin 4) (j : Fin 128), v5 (ix2 c j) = if j.val % 4 = c.val then 1 else 0)
    (r : Fin 2000) (u : Fin 1) :
    k0_pay1 (F := Ideal) (k0_pay2 v0) (k0_pay3 v2) v4 v5 (k0_pay4 v2) (k0_pay5 v2) (k0_pay6 v0 v2 v4) v63 v65 v71 v73 (ix2 r u)
      = Cert.Voxel.occ (fun p c => v0 (ix2 r (Cert.Voxel.lane p c))) (v2 (ix2 r (0 : Fin 1))) (fun k o => v63 (ix2 k o))
          (fun o => v65 (ix2 (0 : Fin 1) o)) (fun o => v71 (ix2 o (0 : Fin 1))) (v73 (ix2 (0 : Fin 1) (0 : Fin 1))) :=
  pay1_row (k0_pay2 (F := Ideal) v0) (k0_pay3 (F := Ideal) v2) v4 v5 (k0_pay4 (F := Ideal) v2) (k0_pay5 (F := Ideal) v2)
    (k0_pay6 (F := Ideal) v0 v2 v4) v63 v65 v71 v73 (fun p c => v0 (ix2 r (Cert.Voxel.lane p c))) (v2 (ix2 r (0 : Fin 1))) r u hsel hselt
    (fun p c => by rw [pay2_eq])
    (by rw [pay3_eq])
    (fun p c => by
      rw [mask_at]
      congr 1
      apply Fin.ext
      show (4 * p.val + c.val) / 4 = p.val
      have := c.isLt; omega)
    (den_at v2 r 0)
    (fun c => mean_at v0 v2 v4 hsel r c)

end Cert.KernelIdeal.RowValue

end
-- ==== Proof.KerHost.lean ====
/-
  What the kernel's region finds in its operands' arrays: the host operations before the region re-lay the features
  `[200000, 32, 4]` as rows of 128 lanes (lane `4 p + c` = point `p`, channel `c`), convert the counts to floats, and
  write the two 0/1 selectors (lane `j` belongs to channel `j mod 4`) and the biases as one-row matrices.
-/
import proofs.«136101_j55808805044588_1_alg».proof.Proof.Gen.KernelIdeal.Frame
import proofs.«136101_j55808805044588_1_alg».proof.Proof.VoxelSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The re-laid features: row `R`, lane `4 p + q` is feature `(R, p, q)`. -/
theorem V_feat (c : Dev nD) (R : Fin 200000) (p : Fin 32) (q : Fin 4) :
    (V m c main_v0 : S200000x128.Idx → EReal) (ix2 R (Cert.Voxel.lane p q))
      = (m ((c : Thread nD τ).loc main_arg0) : S200000x32x4.Idx → EReal) (ix3 R p q) := by
  have e : (V m c main_v0 : S200000x128.Idx → EReal)
      = shapeCast S200000x128 (m ((c : Thread nD τ).loc main_arg0) : S200000x32x4.Idx → EReal)
          shapeCasts_S200000x32x4_S200000x128 := by
    dsimp only [Gen.V, Gen.hostOps0]; after_results; rfl
  -- feature (R, p, q) and lane 4 p + q of row R sit at the same row-major position
  have hk : (S200000x32x4.rowMajor (ix3 R p q)).val = (S200000x128.rowMajor (ix2 R (Cert.Voxel.lane p q))).val := by
    rw [Shape.rowMajor_val_three, Shape.rowMajor_val_two]
    show (R.val * 32 + p.val) * 4 + q.val = R.val * 128 + (4 * p.val + q.val)
    omega
  rw [e, shapeCast_apply _ _ (ix2 R (Cert.Voxel.lane p q)) (ix3 R p q) hk]

/-- The counts as floats, one per row. -/
theorem V_count (c : Dev nD) (R : Fin 200000) (u : Fin 1) :
    (V m c main_v2 : S200000x1.Idx → EReal) (ix2 R u)
      = Cert.Voxel.cnt ((m ((c : Thread nD τ).loc main_arg1) : S200000.Idx → BitVec 32) (ix1 R)) := by
  have e : (V m c main_v2 : S200000x1.Idx → EReal)
      = shapeCast S200000x1 (sitofp (F := Ideal) .f32 (m ((c : Thread nD τ).loc main_arg1) : S200000.Idx → BitVec 32))
          shapeCasts_S200000_S200000x1 := by
    dsimp only [Gen.V, Gen.hostOps0]; after_results; rfl
  -- row R of the one-column matrix sits at row-major position R, as entry R of the vector does
  have hk : (S200000.rowMajor (ix1 R)).val = (S200000x1.rowMajor (ix2 R u)).val := by
    have hu : u.val = 0 := by omega
    rw [Shape.rowMajor_val_one, Shape.rowMajor_val_two]
    show R.val = R.val * 1 + u.val
    omega
  rw [e, shapeCast_apply _ _ (ix2 R u) (ix1 R) hk]
  -- the conversion at an index is the word read as a signed integer
  unfold Cert.Voxel.cnt
  rfl

/-- The literal table of the lanes-to-channels selector, decided entry by entry: position k = 4 j + c holds 1.0 exactly
    when j mod 4 = c. -/
theorem lit0_eq : ∀ k : Fin 512, lit0 k = if (k.val / 4) % 4 = k.val % 4 then 0x3F800000#32 else 0x00000000#32 := by
  decide

/-- The literal table of the channels-to-lanes selector: position k = 128 c + j holds 1.0 exactly when j mod 4 = c. -/
theorem lit1_eq : ∀ k : Fin 512, lit1 k = if k.val % 4 = k.val / 128 then 0x3F800000#32 else 0x00000000#32 := by
  decide

/-- The lanes-to-channels selector `[128, 4]`. -/
theorem V_sel (c : Dev nD) (j : Fin 128) (q : Fin 4) :
    (V m c main_cst : S128x4.Idx → EReal) (ix2 j q) = (if j.val % 4 = q.val then (1 : EReal) else 0) := by
  have e : (V m c main_cst : S128x4.Idx → EReal)
      = fun i => FloatOps.ofBits (F := Ideal) .f32 (lit0 (S128x4.rowMajor i)) := by
    dsimp only [Gen.V, Gen.hostOps0]; after_results; rfl
  -- entry (j, q) sits at row-major position 4 j + q
  have hpos : S128x4.rowMajor (ix2 j q) = (⟨4 * j.val + q.val, by omega⟩ : Fin 512) := by
    apply Fin.ext
    rw [Shape.rowMajor_val_two]
    show j.val * 4 + q.val = 4 * j.val + q.val
    omega
  -- of that position, the quotient by 4 is the lane and the remainder the channel
  have h1 : (4 * j.val + q.val) / 4 = j.val := by have := q.isLt; omega
  have h2 : (4 * j.val + q.val) % 4 = q.val := by have := q.isLt; omega
  rw [e]
  show FloatOps.ofBits (F := Ideal) .f32 (lit0 (S128x4.rowMajor (ix2 j q))) = _
  rw [hpos, lit0_eq, Ideal.ofBits_def]
  show Ideal.ofBits .f32 (if ((4 * j.val + q.val) / 4) % 4 = (4 * j.val + q.val) % 4 then 0x3F800000#32 else 0x00000000#32) = _
  rw [h1, h2]
  by_cases h : j.val % 4 = q.val
  · rw [if_pos h, if_pos h, Cert.Voxel.wOne_eq]
  · rw [if_neg h, if_neg h, Ideal.ofBits_zero_f32]

/-- The channels-to-lanes selector `[4, 128]`. -/
theorem V_selt (c : Dev nD) (q : Fin 4) (j : Fin 128) :
    (V m c main_cst_0 : S4x128.Idx → EReal) (ix2 q j) = (if j.val % 4 = q.val then (1 : EReal) else 0) := by
  have e : (V m c main_cst_0 : S4x128.Idx → EReal)
      = fun i => FloatOps.ofBits (F := Ideal) .f32 (lit1 (S4x128.rowMajor i)) := by
    dsimp only [Gen.V, Gen.hostOps0]; after_results; rfl
  -- entry (q, j) sits at row-major position 128 q + j
  have hpos : S4x128.rowMajor (ix2 q j) = (⟨128 * q.val + j.val, by omega⟩ : Fin 512) := by
    apply Fin.ext
    rw [Shape.rowMajor_val_two]
    show q.val * 128 + j.val = 128 * q.val + j.val
    omega
  -- of that position, the remainder by 4 is the lane's and the quotient by 128 the channel
  have h1 : (128 * q.val + j.val) % 4 = j.val % 4 := by omega
  have h2 : (128 * q.val + j.val) / 128 = q.val := by have := j.isLt; omega
  rw [e]
  show FloatOps.ofBits (F := Ideal) .f32 (lit1 (S4x128.rowMajor (ix2 q j))) = _
  rw [hpos, lit1_eq, Ideal.ofBits_def]
  show Ideal.ofBits .f32 (if (128 * q.val + j.val) % 4 = (128 * q.val + j.val) / 128 then 0x3F800000#32 else 0x00000000#32) = _
  rw [h1, h2]
  by_cases h : j.val % 4 = q.val
  · rw [if_pos h, if_pos h, Cert.Voxel.wOne_eq]
  · rw [if_neg h, if_neg h, Ideal.ofBits_zero_f32]

/-- The first bias as a one-row matrix. -/
theorem V_b1 (c : Dev nD) (u : Fin 1) (o : Fin 16) :
    (V m c main_v3 : S1x16.Idx → EReal) (ix2 u o) = (m ((c : Thread nD τ).loc main_arg4) : S16.Idx → EReal) (ix1 o) := by
  have e : (V m c main_v3 : S1x16.Idx → EReal)
      = shapeCast S1x16 (m ((c : Thread nD τ).loc main_arg4) : S16.Idx → EReal) shapeCasts_S16_S1x16 := by
    dsimp only [Gen.V, Gen.hostOps0]; after_results; rfl
  rw [e]
  exact shapeCast_a_1a_apply _ _ u o

/-- The second bias as a one-by-one matrix. -/
theorem V_b2 (c : Dev nD) (u v : Fin 1) :
    (V m c main_v4 : S1x1.Idx → EReal) (ix2 u v) = (m ((c : Thread nD τ).loc main_arg6) : S1.Idx → EReal) (ix1 (0 : Fin 1)) := by
  have e : (V m c main_v4 : S1x1.Idx → EReal)
      = shapeCast S1x1 (m ((c : Thread nD τ).loc main_arg6) : S1.Idx → EReal) shapeCasts_S1_S1x1 := by
    dsimp only [Gen.V, Gen.hostOps0]; after_results; rfl
  rw [e, shapeCast_a_1a_apply _ _ u v, Subsingleton.elim v (0 : Fin 1)]

end Cert.KernelIdeal.HostValue

end
-- ==== Proof.KerArr.lean ====
/-
  From blocks to the array: grid point `t` writes rows `2000 t … 2000 t + 1999` of the result, each row the
  voxel encoder's occupancy of that voxel, so the result array after the run is `Cert.Voxel.G` of the arguments.
-/
import proofs.«136101_j55808805044588_1_alg».proof.Proof.Gen.KernelIdeal.Value
import proofs.«136101_j55808805044588_1_alg».proof.Proof.KerRow
import proofs.«136101_j55808805044588_1_alg».proof.Proof.KerHost
import proofs.«136101_j55808805044588_1_alg».proof.Proof.VoxelSpec

noncomputable section

open scoped BigOperators

namespace Cert.KernelIdeal.ArrValue

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The zero offset of a whole-block access. -/
theorem zero_offset : (![0, 0] : Fin 2 → Nat) = fun _ => 0 := funext fun a => by fin_cases a <;> rfl

/-- The block index maps over the grid: the features, the counts and the result move one block of 2000 rows a point; the
    selectors, the weights and the biases are one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0) :=
  (by decide +kernel : ∀ t : Fin grid0.N, _)

theorem point_lt (t : Fin cfg0.N) : t.val < 100 := lt_of_lt_of_eq t.isLt N_0

/-- Row `a` of point `t`'s block is row `2000 t + a` of the array. -/
theorem row_lt (t : Fin cfg0.N) (a : Fin 2000) : 2000 * t.val + a.val < 200000 := by
  have := point_lt t; have := a.isLt; omega

/-- The features' block at point `t`, read at a row and a lane. -/
theorem blk_feat (c : Dev nD) (t : Fin cfg0.N) (a : Fin 2000) (j : Fin 128) :
    (iblk m c 0 t : S2000x128.Idx → EReal) (ix2 a j)
      = (V m c main_v0 : S200000x128.Idx → EReal) (ix2 ⟨2000 * t.val + a.val, row_lt t a⟩ j) := by
  obtain ⟨e0, e1, -⟩ := block_index t
  unfold iblk
  show V m c main_v0 (((cfg0.win 0).blk t).view.emb (ix2 a j)) = _
  congr 1
  funext ax
  apply Fin.ext
  match ax with
  | ⟨0, _⟩ => show win0_0.index t (0 : Fin 2) * 2000 + 1 * a.val = 2000 * t.val + a.val; rw [e0]; omega
  | ⟨1, _⟩ => show win0_0.index t (1 : Fin 2) * 128 + 1 * j.val = j.val; rw [e1]; omega

/-- The counts' block at point `t`, read at a row. -/
theorem blk_count (c : Dev nD) (t : Fin cfg0.N) (a : Fin 2000) (u : Fin 1) :
    (iblk m c 1 t : S2000x1.Idx → EReal) (ix2 a u)
      = (V m c main_v2 : S200000x1.Idx → EReal) (ix2 ⟨2000 * t.val + a.val, row_lt t a⟩ u) := by
  obtain ⟨-, -, e0, e1, -⟩ := block_index t
  unfold iblk
  show V m c main_v2 (((cfg0.win 1).blk t).view.emb (ix2 a u)) = _
  congr 1
  funext ax
  apply Fin.ext
  match ax with
  | ⟨0, _⟩ => show win0_1.index t (0 : Fin 2) * 2000 + 1 * a.val = 2000 * t.val + a.val; rw [e0]; omega
  | ⟨1, _⟩ => show win0_1.index t (1 : Fin 2) * 1 + 1 * u.val = u.val; rw [e1]; omega

/-- The lane selector's one block is the whole table. -/
theorem blk_sel (c : Dev nD) (t : Fin cfg0.N) (j : Fin 128) (q : Fin 4) :
    (iblk m c 2 t : S128x4.Idx → EReal) (ix2 j q) = (V m c main_cst : S128x4.Idx → EReal) (ix2 j q) := by
  obtain ⟨-, -, -, -, -, -, e, -⟩ := block_index t
  unfold iblk
  show V m c main_cst (((cfg0.win 2).blk t).view.emb (ix2 j q)) = _
  congr 1
  funext ax
  apply Fin.ext
  match ax with
  | ⟨0, _⟩ => show win0_2.index t (0 : Fin 2) * 128 + 1 * j.val = j.val; rw [e]; omega
  | ⟨1, _⟩ => show win0_2.index t (1 : Fin 2) * 4 + 1 * q.val = q.val; rw [e]; omega

/-- The transposed selector's one block is the whole table. -/
theorem blk_selt (c : Dev nD) (t : Fin cfg0.N) (q : Fin 4) (j : Fin 128) :
    (iblk m c 3 t : S4x128.Idx → EReal) (ix2 q j) = (V m c main_cst_0 : S4x128.Idx → EReal) (ix2 q j) := by
  obtain ⟨-, -, -, -, -, -, -, e, -⟩ := block_index t
  unfold iblk
  show V m c main_cst_0 (((cfg0.win 3).blk t).view.emb (ix2 q j)) = _
  congr 1
  funext ax
  apply Fin.ext
  match ax with
  | ⟨0, _⟩ => show win0_3.index t (0 : Fin 2) * 4 + 1 * q.val = q.val; rw [e]; omega
  | ⟨1, _⟩ => show win0_3.index t (1 : Fin 2) * 128 + 1 * j.val = j.val; rw [e]; omega

/-- The first layer's weights: one block, the whole array. -/
theorem blk_w1 (c : Dev nD) (t : Fin cfg0.N) (k : Fin 5) (o : Fin 16) :
    (iblk m c 4 t : S5x16.Idx → EReal) (ix2 k o) = (V m c main_arg3 : S5x16.Idx → EReal) (ix2 k o) := by
  obtain ⟨-, -, -, -, -, -, -, -, e, -⟩ := block_index t
  unfold iblk
  show V m c main_arg3 (((cfg0.win 4).blk t).view.emb (ix2 k o)) = _
  congr 1
  funext ax
  apply Fin.ext
  match ax with
  | ⟨0, _⟩ => show win0_4.index t (0 : Fin 2) * 5 + 1 * k.val = k.val; rw [e]; omega
  | ⟨1, _⟩ => show win0_4.index t (1 : Fin 2) * 16 + 1 * o.val = o.val; rw [e]; omega

/-- The first layer's bias row: one block, the whole array. -/
theorem blk_b1 (c : Dev nD) (t : Fin cfg0.N) (u : Fin 1) (o : Fin 16) :
    (iblk m c 5 t : S1x16.Idx → EReal) (ix2 u o) = (V m c main_v3 : S1x16.Idx → EReal) (ix2 u o) := by
  obtain ⟨-, -, -, -, -, -, -, -, -, e, -⟩ := block_index t
  unfold iblk
  show V m c main_v3 (((cfg0.win 5).blk t).view.emb (ix2 u o)) = _
  congr 1
  funext ax
  apply Fin.ext
  match ax with
  | ⟨0, _⟩ => show win0_5.index t (0 : Fin 2) * 1 + 1 * u.val = u.val; rw [e]; omega
  | ⟨1, _⟩ => show win0_5.index t (1 : Fin 2) * 16 + 1 * o.val = o.val; rw [e]; omega

/-- The second layer's weights: one block, the whole array. -/
theorem blk_w2 (c : Dev nD) (t : Fin cfg0.N) (o : Fin 16) (u : Fin 1) :
    (iblk m c 6 t : S16x1.Idx → EReal) (ix2 o u) = (V m c main_arg5 : S16x1.Idx → EReal) (ix2 o u) := by
  obtain ⟨-, -, -, -, -, -, -, -, -, -, e, -⟩ := block_index t
  unfold iblk
  show V m c main_arg5 (((cfg0.win 6).blk t).view.emb (ix2 o u)) = _
  congr 1
  funext ax
  apply Fin.ext
  match ax with
  | ⟨0, _⟩ => show win0_6.index t (0 : Fin 2) * 16 + 1 * o.val = o.val; rw [e]; omega
  | ⟨1, _⟩ => show win0_6.index t (1 : Fin 2) * 1 + 1 * u.val = u.val; rw [e]; omega

/-- The second layer's bias: one block, the whole array. -/
theorem blk_b2 (c : Dev nD) (t : Fin cfg0.N) (u v : Fin 1) :
    (iblk m c 7 t : S1x1.Idx → EReal) (ix2 u v) = (V m c main_v4 : S1x1.Idx → EReal) (ix2 u v) := by
  obtain ⟨-, -, -, -, -, -, -, -, -, -, -, e⟩ := block_index t
  unfold iblk
  show V m c main_v4 (((cfg0.win 7).blk t).view.emb (ix2 u v)) = _
  congr 1
  funext ax
  apply Fin.ext
  match ax with
  | ⟨0, _⟩ => show win0_7.index t (0 : Fin 2) * 1 + 1 * u.val = u.val; rw [e]; omega
  | ⟨1, _⟩ => show win0_7.index t (1 : Fin 2) * 1 + 1 * v.val = v.val; rw [e]; omega

/-- The encoder's array of the argument arrays as launched on core `c`. -/
abbrev result (c : Dev nD) : S200000x1.Idx → EReal :=
  Cert.Voxel.G (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6))

/-- The result's block at point `t`, read at a row: any array `X` read through it is `X` at row `2000 t + a`. -/
theorem blk_out (t : Fin cfg0.N) (a : Fin 2000) (u : Fin 1) (X : S200000x1.Idx → EReal) :
    (((cfg0.win 8).blk t).view.read (Elt Ideal) X : S2000x1.Idx → EReal) (ix2 a u)
      = X (ix2 ⟨2000 * t.val + a.val, row_lt t a⟩ u) := by
  obtain ⟨-, -, -, -, e0, e1, -⟩ := block_index t
  show X (((cfg0.win 8).blk t).view.emb (ix2 a u)) = _
  congr 1
  funext ax
  apply Fin.ext
  match ax with
  | ⟨0, _⟩ => show win0_8.index t (0 : Fin 2) * 2000 + 1 * a.val = 2000 * t.val + a.val; rw [e0]; omega
  | ⟨1, _⟩ => show win0_8.index t (1 : Fin 2) * 1 + 1 * u.val = u.val; rw [e1]; omega

/-- The occupancy of equal data is equal. -/
theorem occ_congr {X X' : Fin 32 → Fin 4 → EReal} {ν ν' : EReal} {W1 W1' : Fin 5 → Fin 16 → EReal} {b1 b1' : Fin 16 → EReal}
    {W2 W2' : Fin 16 → EReal} {b2 b2' : EReal} (hX : X = X') (hν : ν = ν') (hW1 : W1 = W1') (hb1 : b1 = b1')
    (hW2 : W2 = W2') (hb2 : b2 = b2') : Cert.Voxel.occ X ν W1 b1 W2 b2 = Cert.Voxel.occ X' ν' W1' b1' W2' b2' := by
  subst hX hν hW1 hb1 hW2 hb2; rfl

/-- What point `t` writes back is block `t` of the encoder's array. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero zero_offset]
  simp only [View.ld_unit_zero (S := S2000x128) zero_offset, View.ld_unit_zero (S := S2000x1) zero_offset,
    View.ld_unit_zero (S := S128x4) zero_offset, View.ld_unit_zero (S := S4x128) zero_offset,
    View.ld_unit_zero (S := S5x16) zero_offset, View.ld_unit_zero (S := S1x16) zero_offset,
    View.ld_unit_zero (S := S16x1) zero_offset, View.ld_unit_zero (S := S1x1) zero_offset]
  funext y
  obtain ⟨a, u, rfl⟩ : ∃ (a : Fin 2000) (u : Fin 1), y = ix2 a u := ⟨y 0, y 1, eq_ix2 y⟩
  refine Eq.trans ?_ (blk_out t a u (result m c)).symm
  show _ = Cert.Voxel.row (m ((c : Thread nD τ).loc main_arg0)) (m ((c : Thread nD τ).loc main_arg1))
    (m ((c : Thread nD τ).loc main_arg3)) (m ((c : Thread nD τ).loc main_arg4)) (m ((c : Thread nD τ).loc main_arg5))
    (m ((c : Thread nD τ).loc main_arg6)) ⟨2000 * t.val + a.val, row_lt t a⟩
  unfold Cert.Voxel.row
  refine (Cert.KernelIdeal.RowValue.pay_row (iblk m c 0 t) (iblk m c 1 t) (iblk m c 2 t) (iblk m c 3 t) (iblk m c 4 t)
    (iblk m c 5 t) (iblk m c 6 t) (iblk m c 7 t)
    (fun j q => (blk_sel m c t j q).trans (Cert.KernelIdeal.HostValue.V_sel m c j q))
    (fun q j => (blk_selt m c t q j).trans (Cert.KernelIdeal.HostValue.V_selt m c q j)) a u).trans ?_
  exact occ_congr
    (funext fun p => funext fun q => (blk_feat m c t a (Cert.Voxel.lane p q)).trans
      (Cert.KernelIdeal.HostValue.V_feat m c ⟨2000 * t.val + a.val, row_lt t a⟩ p q))
    ((blk_count m c t a 0).trans (Cert.KernelIdeal.HostValue.V_count m c ⟨2000 * t.val + a.val, row_lt t a⟩ 0))
    (funext fun k => funext fun o => (blk_w1 m c t k o).trans (congrFun (V_main_arg3 m c) (ix2 k o)))
    (funext fun o => (blk_b1 m c t 0 o).trans (Cert.KernelIdeal.HostValue.V_b1 m c 0 o))
    (funext fun o => (blk_w2 m c t o 0).trans (congrFun (V_main_arg5 m c) (ix2 o (0 : Fin 1))))
    ((blk_b2 m c t 0 0).trans (Cert.KernelIdeal.HostValue.V_b2 m c 0 0))

/-- An index of the array is in point `t`'s block iff each coordinate is in the block's range on its axis. -/
theorem mem_blk (t : Fin cfg0.N) (i : S200000x1.Idx) :
    i ∈ ((cfg0.win 8).blk t).view.set ↔ ∀ a : Fin 2, win0_8.index t a * S2000x1.size a ≤ (i a).val
      ∧ (i a).val < win0_8.index t a * S2000x1.size a + S2000x1.size a := by
  show i ∈ ((View.whole main_v5).slice (win0_8.rect t)).set ↔ _
  rw [View.set_slice_whole, Rect.mem_set_unit]
  exact Iff.rfl

/-- Every row of the result is written: row `R` by point `R / 2000` (100 points of 2000 rows). -/
theorem cover (i : S200000x1.Idx) :
    ∃ t : Fin cfg0.N, (cfg0.win 8).flush t = true ∧ i ∈ ((cfg0.win 8).blk t).view.set := by
  have hi0 : (i 0).val < 200000 := idx2_lt0 i
  have hi1 : (i 1).val < 1 := idx2_lt1 i
  obtain ⟨t, ht⟩ : ∃ t : Fin cfg0.N, t.val = (i 0).val / 2000 :=
    ⟨⟨(i 0).val / 2000, lt_of_lt_of_eq (by omega) N_0.symm⟩, rfl⟩
  obtain ⟨-, -, -, -, e0, e1, -⟩ := block_index t
  refine ⟨t, flush0_8 t, ?_⟩
  rw [mem_blk]
  intro a
  match a with
  | ⟨0, _⟩ =>
    show win0_8.index t (0 : Fin 2) * 2000 ≤ (i 0).val ∧ (i 0).val < win0_8.index t (0 : Fin 2) * 2000 + 2000
    rw [e0]; omega
  | ⟨1, _⟩ =>
    show win0_8.index t (1 : Fin 2) * 1 ≤ (i 1).val ∧ (i 1).val < win0_8.index t (1 : Fin 2) * 1 + 1
    rw [e1]; omega

/-- The result array after the run is the encoder's array. -/
theorem final (c : Dev nD) : (dats m 0 c).arrAt 8 cfg0.N = result m c :=
  (dats m 0 c).arrAt_eq_of_cover 8 (result m c) (fun t _ => flushed_eq m c t) cover

/-- The kernel's run with its result array named: the encoder's array of the argument arrays as launched. -/
theorem run : θ_run (defs (F := Ideal)) (onTc (τ := τ) (main (F := Ideal))) ⟨m, fun _ => 0, ρ⟩ fun r => ∀ c : Dev nD,
      r.2.mem ((c : Thread nD τ).loc main_v5) = Cert.Voxel.G (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  exact (θ_run defs _ _).mono (fun r h c => ⟨(h c).1.trans (final m c), (h c).2⟩) (Value.run_blocks m ρ)

end Cert.KernelIdeal.ArrValue

end
-- ==== Proof.lean ====
/-
  The certificate of the soft voxel-occupancy encoder: a Pallas kernel over rows of 128 lanes (32 points × 4 channels
  per voxel, 2000 voxels per grid point) against its jnp reference over `[200000, 32, 4]`.

  Both programs compute, voxel by voxel, the function `Cert.Voxel.occ` (Proof/VoxelSpec.lean) on the extended reals:
  the masked means and mean squared deviations of the first three channels over the live points, the average spread
  through `exp (-x/2)`, the clipped density, and a 5 → 16 → 1 perceptron with a logistic. The reference sums over the
  32 points of a channel directly; the kernel multiplies each row of 128 lanes by a 0/1 selector of the lanes of a
  channel, which is the same sum since `x · 0 = 0` and `x · 1 = x` on the extended reals (no finiteness is used), and
  spreads the means back over the lanes by the transposed selector. The kernel's mask compares the lane's point number
  as a float with the float count, the reference compares the integers: the same order. The kernel's logistic is the
  reference's `1 / (1 + exp (-x))`.

  The kernel's side: Proof/KerHead.lean and Proof/KerTail.lean read the body at one row, Proof/KerHost.lean the arrays the
  region finds, Proof/KerArr.lean goes from blocks to the array; the reference's side is Proof/RefValue.lean.
-/
import proofs.«136101_j55808805044588_1_alg».proof.Defs
import proofs.«136101_j55808805044588_1_alg».proof.Proof.Gen.Kernel
import proofs.«136101_j55808805044588_1_alg».proof.Proof.Gen.Kernel.Skeleton
import proofs.«136101_j55808805044588_1_alg».proof.Proof.Gen.Kernel.Launch
import proofs.«136101_j55808805044588_1_alg».proof.Proof.Gen.Kernel.Points
import proofs.«136101_j55808805044588_1_alg».proof.Proof.Gen.Kernel.Frame
import proofs.«136101_j55808805044588_1_alg».proof.Proof.Gen.KernelIdeal
import proofs.«136101_j55808805044588_1_alg».proof.Proof.Gen.KernelIdeal.Skeleton
import proofs.«136101_j55808805044588_1_alg».proof.Proof.Gen.KernelIdeal.Launch
import proofs.«136101_j55808805044588_1_alg».proof.Proof.Gen.KernelIdeal.Points
import proofs.«136101_j55808805044588_1_alg».proof.Proof.Gen.KernelIdeal.Frame
import proofs.«136101_j55808805044588_1_alg».proof.Proof.Gen.ReferenceIdeal
import proofs.«136101_j55808805044588_1_alg».proof.Proof.Gen.KernelIdeal.Value
import proofs.«136101_j55808805044588_1_alg».proof.Proof.Gen.ReferenceIdeal.Run
import proofs.«136101_j55808805044588_1_alg».proof.Proof.Gen.ReferenceIdeal.Read
import proofs.«136101_j55808805044588_1_alg».proof.Proof.Gen.Pre_finite_inputs
import proofs.«136101_j55808805044588_1_alg».proof.Proof.VoxelSpec
import proofs.«136101_j55808805044588_1_alg».proof.Proof.RefValue
import proofs.«136101_j55808805044588_1_alg».proof.Proof.KerArr
import Idealize.ShloMosaic.Adequacy
import Idealize.ShloMosaic.Init

noncomputable section

namespace Cert.Proof

open Idealize.ShloMosaic Idealize.ShloMosaic.TcCoe Idealize.SL.Sem

/-- The reference terminates with its arguments unchanged: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories that agree on the arguments the idealized kernel and the idealized reference both end with the
    encoder's array `Cert.Voxel.G` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.RefValue.result_eq, (hagree c).1, (hagree c).2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
